-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S2x3200000 : Shape := ⟨2, ![2, 3200000]⟩
abbrev S64x12 : Shape := ⟨2, ![64, 12]⟩
abbrev S64 : Shape := ⟨1, ![64]⟩
abbrev S13x64 : Shape := ⟨2, ![13, 64]⟩
abbrev S13 : Shape := ⟨1, ![13]⟩
abbrev S13x13 : Shape := ⟨2, ![13, 13]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S64x12 : S_.BroadcastsInDim S64x12 (![] : Fin 0 → Fin S64x12.rank)
  reducesTo_S64x12_S_d0_1 : S64x12.ReducesTo [0, 1] S_
  bcast_S_S64 : S_.BroadcastsInDim S64 (![] : Fin 0 → Fin S64.rank)
  reducesTo_S64_S_d0 : S64.ReducesTo [0] S_
  bcast_S_S13x64 : S_.BroadcastsInDim S13x64 (![] : Fin 0 → Fin S13x64.rank)
  reducesTo_S13x64_S_d0_1 : S13x64.ReducesTo [0, 1] S_
  bcast_S_S13 : S_.BroadcastsInDim S13 (![] : Fin 0 → Fin S13.rank)
  reducesTo_S13_S_d0 : S13.ReducesTo [0] S_
  bcast_S_S13x13 : S_.BroadcastsInDim S13x13 (![] : Fin 0 → Fin S13x13.rank)
  reducesTo_S13x13_S_d0_1 : S13x13.ReducesTo [0, 1] S_

variable [Facts]

def fn_part2 {F : FTy → Type} [FloatOps F] (main_arg8 : FVec F S13x13 .f32) (main_v33 : IVec S_ 1) : IVec S_ 1 :=
  let main_v34 : FVec F S13x13 .f32 := Host.absf main_arg8
  let main_cst_12 : FVec F S_ .f32 := constant S_ .f32 0x7F800000#32
  let main_v35 : FVec F S13x13 .f32 := broadcastInDim S13x13 ![] bcast_S_S13x13 main_cst_12
  let main_v36 : IVec S13x13 1 := cmpf .olt main_v34 main_v35
  let main_c_13 : IVec S_ 1 := constantI S_ 1 1#1
  let main_v37 : IVec S_ 1 := (fun x v => Host.reduce IntOp.andi x v reducesTo_S13x13_S_d0_1 h_S_) main_v36 main_c_13
  let main_v38 : IVec S_ 1 := andi main_v33 main_v37
  main_v38

def fn_part1 {F : FTy → Type} [FloatOps F] (main_arg5 : FVec F S13x64 .f32) (main_arg6 : FVec F S13x64 .f32) (main_arg7 : FVec F S13 .f32) (main_arg8 : FVec F S13x13 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S13x64 .f32 := Host.absf main_arg5
  let main_cst_6 : FVec F S_ .f32 := constant S_ .f32 0x7F800000#32
  let main_v20 : FVec F S13x64 .f32 := broadcastInDim S13x64 ![] bcast_S_S13x64 main_cst_6
  let main_v21 : IVec S13x64 1 := cmpf .olt main_v19 main_v20
  let main_c_7 : IVec S_ 1 := constantI S_ 1 1#1
  let main_v22 : IVec S_ 1 := (fun x v => Host.reduce IntOp.andi x v reducesTo_S13x64_S_d0_1 h_S_) main_v21 main_c_7
  let main_v23 : IVec S_ 1 := andi main_v18 main_v22
  let main_v24 : FVec F S13x64 .f32 := Host.absf main_arg6
  let main_cst_8 : FVec F S_ .f32 := constant S_ .f32 0x7F800000#32
  let main_v25 : FVec F S13x64 .f32 := broadcastInDim S13x64 ![] bcast_S_S13x64 main_cst_8
  let main_v26 : IVec S13x64 1 := cmpf .olt main_v24 main_v25
  let main_c_9 : IVec S_ 1 := constantI S_ 1 1#1
  let main_v27 : IVec S_ 1 := (fun x v => Host.reduce IntOp.andi x v reducesTo_S13x64_S_d0_1 h_S_) main_v26 main_c_9
  let main_v28 : IVec S_ 1 := andi main_v23 main_v27
  let main_v29 : FVec F S13 .f32 := Host.absf main_arg7
  let main_cst_10 : FVec F S_ .f32 := constant S_ .f32 0x7F800000#32
  let main_v30 : FVec F S13 .f32 := broadcastInDim S13 ![] bcast_S_S13 main_cst_10
  let main_v31 : IVec S13 1 := cmpf .olt main_v29 main_v30
  let main_c_11 : IVec S_ 1 := constantI S_ 1 1#1
  let main_v32 : IVec S_ 1 := (fun x v => Host.reduce IntOp.andi x v reducesTo_S13_S_d0 h_S_) main_v31 main_c_11
  let main_v33 : IVec S_ 1 := andi main_v28 main_v32
  fn_part2 (F := F) main_arg8 main_v33

def fn {F : FTy → Type} [FloatOps F] (main_arg0 : FVec F S100000x12 .f32) (main_arg1 : IVec S2x3200000 32) (main_arg2 : FVec F S64x12 .f32) (main_arg3 : FVec F S64x12 .f32) (main_arg4 : FVec F S64 .f32) (main_arg5 : FVec F S13x64 .f32) (main_arg6 : FVec F S13x64 .f32) (main_arg7 : FVec F S13 .f32) (main_arg8 : FVec F S13x13 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S64x12 .f32 := Host.absf main_arg2
  let main_cst_0 : FVec F S_ .f32 := constant S_ .f32 0x7F800000#32
  let main_v5 : FVec F S64x12 .f32 := broadcastInDim S64x12 ![] bcast_S_S64x12 main_cst_0
  let main_v6 : IVec S64x12 1 := cmpf .olt main_v4 main_v5
  let main_c_1 : IVec S_ 1 := constantI S_ 1 1#1
  let main_v7 : IVec S_ 1 := (fun x v => Host.reduce IntOp.andi x v reducesTo_S64x12_S_d0_1 h_S_) main_v6 main_c_1
  let main_v8 : IVec S_ 1 := andi main_v3 main_v7
  let main_v9 : FVec F S64x12 .f32 := Host.absf main_arg3
  let main_cst_2 : FVec F S_ .f32 := constant S_ .f32 0x7F800000#32
  let main_v10 : FVec F S64x12 .f32 := broadcastInDim S64x12 ![] bcast_S_S64x12 main_cst_2
  let main_v11 : IVec S64x12 1 := cmpf .olt main_v9 main_v10
  let main_c_3 : IVec S_ 1 := constantI S_ 1 1#1
  let main_v12 : IVec S_ 1 := (fun x v => Host.reduce IntOp.andi x v reducesTo_S64x12_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x12 : Shape := ⟨2, ![100000, 12]⟩
abbrev S2x3200000 : Shape := ⟨2, ![2, 3200000]⟩
abbrev S64x12 : Shape := ⟨2, ![64, 12]⟩
abbrev S64 : Shape := ⟨1, ![64]⟩
abbrev S13x64 : Shape := ⟨2, ![13, 64]⟩
abbrev S13 : Shape := ⟨1, ![13]⟩
abbrev S13x13 : Shape := ⟨2, ![13, 13]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x12 : Shape := ⟨2, ![3200000, 12]⟩
abbrev S12x64 : Shape := ⟨2, ![12, 64]⟩
abbrev S1x64 : Shape := ⟨2, ![1, 64]⟩
abbrev S100000x64 : Shape := ⟨2, ![100000, 64]⟩
abbrev S20000x12 : Shape := ⟨2, ![20000, 12]⟩
abbrev S20000x64 : Shape := ⟨2, ![20000, 64]⟩
abbrev S3200000x64 : Shape := ⟨2, ![3200000, 64]⟩
abbrev S64x13 : Shape := ⟨2, ![64, 13]⟩
abbrev S1x13 : Shape := ⟨2, ![1, 13]⟩
abbrev S100000x13 : Shape := ⟨2, ![100000, 13]⟩
abbrev S5000x64 : Shape := ⟨2, ![5000, 64]⟩
abbrev S5000x13 : Shape := ⟨2, ![5000, 13]⟩
abbrev S5000x1x13 : Shape := ⟨3, ![5000, 1, 13]⟩
abbrev S1x13x13 : Shape := ⟨3, ![1, 13, 13]⟩
abbrev S5000x13x13 : Shape := ⟨3, ![5000, 13, 13]⟩

abbrev nBuf : Space → Nat
  | .hbm => 64
  | .vmem => 19
  | .smem => 0
  | _ => 0

abbrev bufTy : (tb : Table) → Fin (tcTables nBuf tb) → BufTy
  | .hbm, ⟨0, _⟩ => ⟨S100000x12, .f32⟩
  | .hbm, ⟨1, _⟩ => ⟨S2x3200000, .i32⟩
  | .hbm, ⟨2, _⟩ => ⟨S64x12, .f32⟩
  | .hbm, ⟨3, _⟩ => ⟨S64x12, .f32⟩
  | .hbm, ⟨4, _⟩ => ⟨S64, .f32⟩
  | .hbm, ⟨5, _⟩ => ⟨S13x64, .f32⟩
  | .hbm, ⟨6, _⟩ => ⟨S13x64, .f32⟩
  | .hbm, ⟨7, _⟩ => ⟨S13, .f32⟩
  | .hbm, ⟨8, _⟩ => ⟨S13x13, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x12, .f32⟩
  | .hbm, ⟨35, _⟩ => ⟨S_, .f32⟩
  | .hbm, ⟨36, _⟩ => ⟨S100000x12, .f32⟩
  | .hbm, ⟨37, _⟩ => ⟨S3200000x1, .i32⟩
  | .hbm, ⟨38, _⟩ => ⟨S100000x12, .f32⟩
  | .hbm, ⟨39, _⟩ => ⟨S100000x12, .f32⟩
  | .hbm, ⟨40, _⟩ => ⟨S100000x12, .f32⟩
  | .hbm, ⟨41, _⟩ => ⟨S12x64, .f32⟩
  | .hbm, ⟨42, _⟩ => ⟨S12x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x64, .f32⟩
  | .hbm, ⟨54, _⟩ => ⟨S_, .f32⟩
  | .hbm, ⟨55, _⟩ => ⟨S100000x64, .f32⟩
  | .hbm, ⟨56, _⟩ => ⟨S3200000x1, .i32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S64x13, .f32⟩
  | .hbm, ⟨61, _⟩ => ⟨S64x13, .f32⟩
  | .hbm, ⟨62, _⟩ => ⟨S1x13, .f32⟩
  | .hbm, ⟨63, _⟩ => ⟨S100000x13, .f32⟩
  | .local _ .vmem, ⟨0, _⟩ => ⟨S20000x12, .f32⟩
  | .local _ .vmem, ⟨1, _⟩ => ⟨S20000x12, .f32⟩
  | .local _ .vmem, ⟨2, _⟩ => ⟨S20000x12, .f32⟩
  | .local _ .vmem, ⟨3, _⟩ => ⟨S20000x12, .f32⟩
  | .local _ .vmem, ⟨4, _⟩ => ⟨S12x64, .f32⟩
  | .local _ .vmem, ⟨5, _⟩ => ⟨S12x64, .f32⟩
  | .local _ .vmem, ⟨6, _⟩ => ⟨S1x64, .f32⟩
  | .local _ .vmem, ⟨7, _⟩ => ⟨S20000x64, .f32⟩
  | .local _ .vmem, ⟨8, _⟩ => ⟨S20000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x13, .f32⟩
  | .local _ .vmem, ⟨14, _⟩ => ⟨S64x13, .f32⟩
  | .local _ .vmem, ⟨15, _⟩ => ⟨S1x13, .f32⟩
  | .local _ .vmem, ⟨16, _⟩ => ⟨S13x13, .f32⟩
  | .local _ .vmem, ⟨17, _⟩ => ⟨S5000x13, .f32⟩
  | .local _ .vmem, ⟨18, _⟩ => ⟨S5000x13, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S20000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x13 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x13 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x13 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S13x13 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x13 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x12 : S_.BroadcastsInDim S100000x12 (![] : Fin 0 → Fin S100000x12.rank)
  bcast_S100000x1_S100000x12_0_1 : S100000x1.BroadcastsInDim S100000x12 (![0, 1] : Fin 2 → Fin S100000x12.rank)
  transposes_S64x12_S12x64_1_0 : S64x12.Transposes [1, 0] S12x64
  shapeCasts_S64_S1x64 : S64.ShapeCasts S1x64
  inb_S20000x12_S20000x12_0_0 : ∀ a, (![0, 0] : Fin 2 → Nat) a + S20000x12.size a ≤ S20000x12.size a
  h_S20000x12 : 0 < S20000x12.numel
  shapeCasts_S20000x12_S20000x12 : S20000x12.ShapeCasts S20000x12
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  shapeCasts_S12x64_S12x64 : S12x64.ShapeCasts S12x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S13x64_S64x13_1_0 : S13x64.Transposes [1, 0] S64x13
  shapeCasts_S13_S1x13 : S13.ShapeCasts S1x13
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x13_S64x13_0_0 : ∀ a, (![0, 0] : Fin 2 → Nat) a + S64x13.size a ≤ S64x13.size a
  h_S64x13 : 0 < S64x13.numel
  shapeCasts_S64x13_S64x13 : S64x13.ShapeCasts S64x13
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S5000x13 : S1x13.Broadcasts S5000x13
  inb_S13x13_S13x13_0_0 : ∀ a, (![0, 0] : Fin 2 → Nat) a + S13x13.size a ≤ S13x13.size a
  h_S13x13 : 0 < S13x13.numel
  shapeCasts_S5000x13_S5000x1x13 : S5000x13.ShapeCasts S5000x1x13
  shapeCasts_S13x13_S1x13x13 : S13x13.ShapeCasts S1x13x13
  broadcasts_S5000x1x13_S5000x13x13 : S5000x1x13.Broadcasts S5000x13x13
  broadcasts_S1x13x13_S5000x13x13 : S1x13x13.Broadcasts S5000x13x13
  reduces_S5000x13x13_S5000x13 : S5000x13x13.Reduces [2] S5000x13
  inb_S5000x13_S5000x13_0_0 : ∀ a, (![0, 0] : Fin 2 → Nat) a + S5000x13.size a ≤ S5000x13.size a
  h_S5000x13 : 0 < S5000x13.numel
  scatter_S100000_S3200000x1_S3200000_n_0_0_1_wf : ScatterDims.WF S100000 S3200000x1 S3200000 [] [0] [0] 1
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  dot_S20000x12_S12x64_S20000x64_1_0_0_1_n_n_wf : DotDims.WF S20000x12 S12x64 S20000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x13_S5000x13_1_0_0_1_n_n_wf : DotDims.WF S5000x64 S64x13 S5000x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x12.size a ≤ S100000x12.size a
  hwx0_0 : ∀ i : grid0.Coords, EltTy.bits .f32 = 32 ∨ (Rect.block (s := S100000x12) S20000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x12.size a ≤ S100000x12.size a
  hwx0_1 : ∀ i : grid0.Coords, EltTy.bits .f32 = 32 ∨ (Rect.block (s := S100000x12) S20000x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x64.size a ≤ S12x64.size a
  hwx0_2 : ∀ i : grid0.Coords, EltTy.bits .f32 = 32 ∨ (Rect.block (s := S12x64) S12x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x64.size a ≤ S12x64.size a
  hwx0_3 : ∀ i : grid0.Coords, EltTy.bits .f32 = 32 ∨ (Rect.block (s := S12x64) S12x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x64.size a ≤ S100000x64.size a
  hwx0_5 : ∀ i : grid0.Coords, EltTy.bits .f32 = 32 ∨ (Rect.block (s := S100000x64) S20000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x13.size a ≤ S64x13.size a
  hwx1_2 : ∀ i : grid1.Coords, EltTy.bits .f32 = 32 ∨ (Rect.block (s := S64x13) S64x13.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x13.size a ≤ S64x13.size a
  hwx1_3 : ∀ i : grid1.Coords, EltTy.bits .f32 = 32 ∨ (Rect.block (s := S64x13) S64x13.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x13.size a ≤ S1x13.size a
  hwx1_4 : ∀ i : grid1.Coords, EltTy.bits .f32 = 32 ∨ (Rect.block (s := S1x13) S1x13.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S13x13.size a ≤ S13x13.size a
  hwx1_5 : ∀ i : grid1.Coords, EltTy.bits .f32 = 32 ∨ (Rect.block (s := S13x13) S13x13.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x13.size a ≤ S100000x13.size a
  hwx1_6 : ∀ i : grid1.Coords, EltTy.bits .f32 = 32 ∨ (Rect.block (s := S100000x13) S5000x13.size (cc1_transform_6 i) (hinb1_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S20000x12_S12x64_S20000x64_1_0_0_1_n_n : DotDims S20000x12 S12x64 S20000x64 where
  lhsContracting := [1]
  rhsContracting := [0]
  lhsNonContracting := [0]
  rhsNonContracting := [1]
  lhsBatch := []
  rhsBatch := []
  wf := dot_S20000x12_S12x64_S20000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x13_S5000x13_1_0_0_1_n_n : DotDims S5000x64 S64x13 S5000x13 where
  lhsContracting := [1]
  rhsContracting := [0]
  lhsNonContracting := [0]
  rhsNonContracting := [1]
  lhsBatch := []
  rhsBatch := []
  wf := dot_S5000x64_S64x13_S5000x13_1_0_0_1_n_n_wf

abbrev win0_0 : Pipeline.Window sig grid0 :=
  Pipeline.Window.ofSpec (Memref.whole main_v24) S20000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S20000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S12x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S12x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S20000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x13.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x13.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x13.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S13x13.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x13.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x12 : Shape := ⟨2, ![100000, 12]⟩
abbrev S2x3200000 : Shape := ⟨2, ![2, 3200000]⟩
abbrev S64x12 : Shape := ⟨2, ![64, 12]⟩
abbrev S64 : Shape := ⟨1, ![64]⟩
abbrev S13x64 : Shape := ⟨2, ![13, 64]⟩
abbrev S13 : Shape := ⟨1, ![13]⟩
abbrev S13x13 : Shape := ⟨2, ![13, 13]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x12 : Shape := ⟨2, ![3200000, 12]⟩
abbrev S100000 : Shape := ⟨1, ![100000]⟩
abbrev S100000x1 : Shape := ⟨2, ![100000, 1]⟩
abbrev S12x64 : Shape := ⟨2, ![12, 64]⟩
abbrev S100000x64 : Shape := ⟨2, ![100000, 64]⟩
abbrev S1x64 : Shape := ⟨2, ![1, 64]⟩
abbrev S3200000x64 : Shape := ⟨2, ![3200000, 64]⟩
abbrev S64x13 : Shape := ⟨2, ![64, 13]⟩
abbrev S100000x13 : Shape := ⟨2, ![100000, 13]⟩
abbrev S1x13 : Shape := ⟨2, ![1, 13]⟩
abbrev S1x13x13 : Shape := ⟨3, ![1, 13, 13]⟩
abbrev S100000x1x13 : Shape := ⟨3, ![100000, 1, 13]⟩
abbrev S100000x13x13 : Shape := ⟨3, ![100000, 13, 13]⟩

abbrev nBuf : Space → Nat
  | .hbm => 101
  | .vmem => 0
  | .smem => 0
  | _ => 0

abbrev bufTy : (tb : Table) → Fin (tcTables nBuf tb) → BufTy
  | .hbm, ⟨0, _⟩ => ⟨S100000x12, .f32⟩
  | .hbm, ⟨1, _⟩ => ⟨S2x3200000, .i32⟩
  | .hbm, ⟨2, _⟩ => ⟨S64x12, .f32⟩
  | .hbm, ⟨3, _⟩ => ⟨S64x12, .f32⟩
  | .hbm, ⟨4, _⟩ => ⟨S64, .f32⟩
  | .hbm, ⟨5, _⟩ => ⟨S13x64, .f32⟩
  | .hbm, ⟨6, _⟩ => ⟨S13x64, .f32⟩
  | .hbm, ⟨7, _⟩ => ⟨S13, .f32⟩
  | .hbm, ⟨8, _⟩ => ⟨S13x13, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x12, .f32⟩
  | .hbm, ⟨22, _⟩ => ⟨S_, .f32⟩
  | .hbm, ⟨23, _⟩ => ⟨S100000x12, .f32⟩
  | .hbm, ⟨24, _⟩ => ⟨S3200000x1, .i32⟩
  | .hbm, ⟨25, _⟩ => ⟨S100000x12, .f32⟩
  | .hbm, ⟨26, _⟩ => ⟨S_, .f32⟩
  | .hbm, ⟨27, _⟩ => ⟨S3200000, .f32⟩
  | .hbm, ⟨28, _⟩ => ⟨S_, .f32⟩
  | .hbm, ⟨29, _⟩ => ⟨S100000, .f32⟩
  | .hbm, ⟨30, _⟩ => ⟨S3200000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x12, .f32⟩
  | .hbm, ⟨37, _⟩ => ⟨S100000x12, .f32⟩
  | .hbm, ⟨38, _⟩ => ⟨S12x64, .f32⟩
  | .hbm, ⟨39, _⟩ => ⟨S100000x64, .f32⟩
  | .hbm, ⟨40, _⟩ => ⟨S12x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S1x3200000, .i32⟩
  | .hbm, ⟨50, _⟩ => ⟨S3200000, .i32⟩
  | .hbm, ⟨51, _⟩ => ⟨S1x3200000, .i32⟩
  | .hbm, ⟨52, _⟩ => ⟨S3200000, .i32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000x64, .f32⟩
  | .hbm, ⟨62, _⟩ => ⟨S_, .f32⟩
  | .hbm, ⟨63, _⟩ => ⟨S100000x64, .f32⟩
  | .hbm, ⟨64, _⟩ => ⟨S3200000x1, .i32⟩
  | .hbm, ⟨65, _⟩ => ⟨S100000x64, .f32⟩
  | .hbm, ⟨66, _⟩ => ⟨S_, .f32⟩
  | .hbm, ⟨67, _⟩ => ⟨S3200000, .f32⟩
  | .hbm, ⟨68, _⟩ => ⟨S_, .f32⟩
  | .hbm, ⟨69, _⟩ => ⟨S100000, .f32⟩
  | .hbm, ⟨70, _⟩ => ⟨S3200000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S64x13, .f32⟩
  | .hbm, ⟨79, _⟩ => ⟨S100000x13, .f32⟩
  | .hbm, ⟨80, _⟩ => ⟨S64x13, .f32⟩
  | .hbm, ⟨81, _⟩ => ⟨S100000x13, .f32⟩
  | .hbm, ⟨82, _⟩ => ⟨S100000x13, .f32⟩
  | .hbm, ⟨83, _⟩ => ⟨S1x13, .f32⟩
  | .hbm, ⟨84, _⟩ => ⟨S100000x13, .f32⟩
  | .hbm, ⟨85, _⟩ => ⟨S100000x13, .f32⟩
  | .hbm, ⟨86, _⟩ => ⟨S100000x13, .f32⟩
  | .hbm, ⟨87, _⟩ => ⟨S100000x13, .f32⟩
  | .hbm, ⟨88, _⟩ => ⟨S_, .f32⟩
  | .hbm, ⟨89, _⟩ => ⟨S100000x13, .f32⟩
  | .hbm, ⟨90, _⟩ => ⟨S100000x13, .f32⟩
  | .hbm, ⟨91, _⟩ => ⟨S_, .f32⟩
  | .hbm, ⟨92, _⟩ => ⟨S100000x13, .f32⟩
  | .hbm, ⟨93, _⟩ => ⟨S100000x13, .f32⟩
  | .hbm, ⟨94, _⟩ => ⟨S1x13x13, .f32⟩
  | .hbm, ⟨95, _⟩ => ⟨S100000x1x13, .f32⟩
  | .hbm, ⟨96, _⟩ => ⟨S100000x13x13, .f32⟩
  | .hbm, ⟨97, _⟩ => ⟨S100000x13x13, .f32⟩
  | .hbm, ⟨98, _⟩ => ⟨S100000x13x13, .f32⟩
  | .hbm, ⟨99, _⟩ => ⟨S_, .f32⟩
  | .hbm, ⟨100, _⟩ => ⟨S100000x13, .f32⟩
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x12 : S_.BroadcastsInDim S100000x12 (![] : Fin 0 → Fin S100000x12.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x12_0_1 : S100000x1.BroadcastsInDim S100000x12 (![0, 1] : Fin 2 → Fin S100000x12.rank)
  transposes_S64x12_S12x64_1_0 : S64x12.Transposes [1, 0] S12x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S13x64_S64x13_1_0 : S13x64.Transposes [1, 0] S64x13
  bcast_S13_S1x13_1 : S13.BroadcastsInDim S1x13 (![1] : Fin 1 → Fin S1x13.rank)
  bcast_S1x13_S100000x13_0_1 : S1x13.BroadcastsInDim S100000x13 (![0, 1] : Fin 2 → Fin S100000x13.rank)
  bcast_S_S100000x13 : S_.BroadcastsInDim S100000x13 (![] : Fin 0 → Fin S100000x13.rank)
  bcast_S13x13_S1x13x13_1_2 : S13x13.BroadcastsInDim S1x13x13 (![1, 2] : Fin 2 → Fin S1x13x13.rank)
  bcast_S100000x13_S100000x1x13_0_2 : S100000x13.BroadcastsInDim S100000x1x13 (![0, 2] : Fin 2 → Fin S100000x1x13.rank)
  bcast_S1x13x13_S100000x13x13_0_1_2 : S1x13x13.BroadcastsInDim S100000x13x13 (![0, 1, 2] : Fin 3 → Fin S100000x13x13.rank)
  bcast_S100000x1x13_S100000x13x13_0_1_2 : S100000x1x13.BroadcastsInDim S100000x13x13 (![0, 1, 2] : Fin 3 → Fin S100000x13x13.rank)
  reducesTo_S100000x13x13_S100000x13_d2 : S100000x13x13.ReducesTo [2] S100000x13
  h_S_ : 0 < S_.numel
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  scatter_S100000_S3200000x1_S3200000_n_0_0_1_wf : ScatterDims.WF S100000 S3200000x1 S3200000 [] [0] [0] 1
  dot_S100000x12_S12x64_S100000x64_1_0_0_1_n_n_wf : DotDims.WF S100000x12 S12x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x13_S100000x13_1_0_0_1_n_n_wf : DotDims.WF S100000x64 S64x13 S100000x13 [1] [0] [0] [1] [] []

variable [Facts₀]

def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x13_S100000x13_1_0_0_1_n_n : DotDims S100000x64 S64x13 S100000x13 where
  lhsContracting := [1]
  rhsContracting := [0]
  lhsNonContracting := [0]
  rhsNonContracting := [1]
  lhsBatch := []
  rhsBatch := []
  wf := dot_S100000x64_S64x13_S100000x13_1_0_0_1_n_n_wf

class Facts : Prop extends Facts₀ where

variable [Facts]
-- ==== Proof.Spec.lean ====
/-
  One layer of a mean-aggregating graph convolution, and the hierarchy constraint after the second layer, as
  functions of arrays over the extended reals, read one output element at a time.

  For a node p and an output feature q a layer adds two dot products — the aggregated neighbourhood row against one
  weight matrix, the node's own row against another — and a bias:
      lin u v wu wv bias p q = (Σₖ u[p,k]·wu[k,q] + Σₖ v[p,k]·wv[k,q]) + bias[q].
  The first layer clamps this below at the zero word (`hidden`), the second passes it through the logistic function
  (`score`). The constrained output for node p and class i is the largest of score[p,j]·r[i,j] over the classes j,
  folded from the word of −∞ (`constrained`).

  The mean aggregation divides a neighbourhood sum s by the degree count d clamped below at one. Multiplying by
  the reciprocal 1/d instead gives the same extended real whenever d is not zero: off zero the quotient x/d is by
  definition x·d⁻¹ (`mul_recip_eq_div`), and a maximum with one is never zero (`max_one_ne_zero`).
-/
import Idealize.ShloMosaic.PureOps.Ideal
import Idealize.ShloMosaic.Lib.ValueIdx

noncomputable section

namespace Sage

open Idealize.ShloMosaic Idealize.ShloMosaic.ValueIdx

/-- Two dot products along the shared axis and a bias: element (p, q) of `u·wu + v·wv + bias`. -/
def lin {n a b : ℕ} (u v : (⟨2, ![n, a]⟩ : Shape).Idx → EReal) (wu wv : (⟨2, ![a, b]⟩ : Shape).Idx → EReal)
    (bias : Fin b → EReal) (p : Fin n) (q : Fin b) : EReal :=
  ((∑ k : Fin a, u (ix2 p k) * wu (ix2 k q)) + (∑ k : Fin a, v (ix2 p k) * wv (ix2 k q))) + bias q

/-- The first layer's element (p, q): the linear part clamped below at the zero word. -/
def hidden {n a b : ℕ} (u v : (⟨2, ![n, a]⟩ : Shape).Idx → EReal) (wu wv : (⟨2, ![a, b]⟩ : Shape).Idx → EReal)
    (bias : Fin b → EReal) (p : Fin n) (q : Fin b) : EReal :=
  max (lin u v wu wv bias p q) (Ideal.ofBits .f32 0x00000000#32)

/-- The first layer as a whole array. -/
def hiddenArr {n a b : ℕ} (u v : (⟨2, ![n, a]⟩ : Shape).Idx → EReal) (wu wv : (⟨2, ![a, b]⟩ : Shape).Idx → EReal)
    (bias : Fin b → EReal) : (⟨2, ![n, b]⟩ : Shape).Idx → EReal :=
  fun j => hidden u v wu wv bias (j 0) (j 1)

/-- The second layer's element (p, j): the logistic function of the linear part. -/
def score {n a b : ℕ} (u v : (⟨2, ![n, a]⟩ : Shape).Idx → EReal) (wu wv : (⟨2, ![a, b]⟩ : Shape).Idx → EReal)
    (bias : Fin b → EReal) (p : Fin n) (j : Fin b) : EReal :=
  Ideal.logistic (lin u v wu wv bias p j)

/-- The constrained output's element (p, i): the largest `score[p,j]·r[i,j]` over j, folded from the word of −∞. -/
def constrained {n a b : ℕ} (u v : (⟨2, ![n, a]⟩ : Shape).Idx → EReal) (wu wv : (⟨2, ![a, b]⟩ : Shape).Idx → EReal)
    (bias : Fin b → EReal) (r : (⟨2, ![b, b]⟩ : Shape).Idx → EReal) (p : Fin n) (i : Fin b) : EReal :=
  (Finset.univ : Finset (Fin b)).fold max (Ideal.ofBits .f32 0xFF800000#32)
    (fun j => score u v wu wv bias p j * r (ix2 i j))

/-- The constrained output as a whole array. -/
def constrainedArr {n a b : ℕ} (u v : (⟨2, ![n, a]⟩ : Shape).Idx → EReal) (wu wv : (⟨2, ![a, b]⟩ : Shape).Idx → EReal)
    (bias : Fin b → EReal) (r : (⟨2, ![b, b]⟩ : Shape).Idx → EReal) : (⟨2, ![n, b]⟩ : Shape).Idx → EReal :=
  fun j => constrained u v wu wv bias r (j 0) (j 1)

/-- A maximum with one is not zero. -/
theorem max_one_ne_zero (x : EReal) : max x 1 ≠ 0 :=
  ne_of_gt (lt_of_lt_of_le zero_lt_one (le_max_right x 1))

/-- Off zero, multiplying by the reciprocal is dividing: `s · (1/d) = s/d` on the extended reals. -/
theorem mul_recip_eq_div (s d : EReal) (hd : d ≠ 0) : s * Ideal.div 1 d = Ideal.div s d := by
  unfold Ideal.div
  rw [if_neg hd, if_neg hd, one_mul]

end Sage

end
-- ==== Proof.Region0.lean ====
/-
  The first layer's pallas_call, read as one whole-array function.

  Each of the five grid points loads a block of 20000 rows of the two node-feature arrays, the two whole weight
  matrices and the bias row; multiplies each row block into its weight matrix, adds the two products and the bias row,
  and clamps below at the zero word. At the extended reals the narrowing to the 16-bit format is the identity and a
  product into the zero accumulator is the plain sum over the shared axis, so element (p, q) of a block's result is
  `Sage.hidden` of the loaded blocks. The output's block at grid point t is rows 20000·t … 20000·t + 19999; the row
  blocks of the inputs sit at the same rows and the weight and bias blocks are the whole arrays, so what point t
  writes back is block t of `Sage.hiddenArr` of the arrays. The five blocks cover the array: row r lies in block
  r / 20000.
-/
import proofs.«160143_j57294863729409_1_alg».proof.Proof.Gen.KernelIdeal.Frame
import proofs.«160143_j57294863729409_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The row-block product at an index -/

/-- The left operand's row coordinate is the output's row. -/
theorem lhs_rows_0 (i : S20000x64.Idx) (q : dot_S20000x12_S12x64_S20000x64_1_0_0_1_n_n.contr.Idx) :
    (dot_S20000x12_S12x64_S20000x64_1_0_0_1_n_n.lhsIdx i q 0).val = (i 0).val := by
  unfold DotDims.lhsIdx
  rw [dif_neg (show ¬(0 : Fin S20000x12.rank) ∈ dot_S20000x12_S12x64_S20000x64_1_0_0_1_n_n.lhsBatch by decide), dif_pos (show (0 : Fin S20000x12.rank) ∈ dot_S20000x12_S12x64_S20000x64_1_0_0_1_n_n.lhsNonContracting by decide)]
  rfl
/-- The left operand's column coordinate is the shared index. -/
theorem lhs_rows_1 (i : S20000x64.Idx) (q : dot_S20000x12_S12x64_S20000x64_1_0_0_1_n_n.contr.Idx) :
    (dot_S20000x12_S12x64_S20000x64_1_0_0_1_n_n.lhsIdx i q 1).val = (q ⟨0, by decide⟩).val :=
  dot_S20000x12_S12x64_S20000x64_1_0_0_1_n_n.lhsIdx_val_of_single rfl i q
/-- The right operand's row coordinate is the shared index. -/
theorem rhs_rows_0 (i : S20000x64.Idx) (q : dot_S20000x12_S12x64_S20000x64_1_0_0_1_n_n.contr.Idx) :
    (dot_S20000x12_S12x64_S20000x64_1_0_0_1_n_n.rhsIdx i q 0).val = (q ⟨0, by decide⟩).val :=
  dot_S20000x12_S12x64_S20000x64_1_0_0_1_n_n.rhsIdx_val_of_single rfl i q
/-- The right operand's column coordinate is the output's column. -/
theorem rhs_rows_1 (i : S20000x64.Idx) (q : dot_S20000x12_S12x64_S20000x64_1_0_0_1_n_n.contr.Idx) :
    (dot_S20000x12_S12x64_S20000x64_1_0_0_1_n_n.rhsIdx i q 1).val = (i 1).val := by
  unfold DotDims.rhsIdx
  rw [dif_neg (show ¬(1 : Fin S12x64.rank) ∈ dot_S20000x12_S12x64_S20000x64_1_0_0_1_n_n.rhsBatch by decide), dif_pos (show (1 : Fin S12x64.rank) ∈ dot_S20000x12_S12x64_S20000x64_1_0_0_1_n_n.rhsNonContracting by decide)]
  rfl

/-- A row block times a weight matrix into the zero accumulator, at element (p, q): the sum over the shared axis of
    the row's entries times the column's. -/
theorem rowsMatmul_apply {φ₁ φ₂ : FTy} (l : FVec Ideal S20000x12 φ₁) (r : FVec Ideal S12x64 φ₂) (p : Fin 20000) (q : Fin 64) :
    matmul dot_S20000x12_S12x64_S20000x64_1_0_0_1_n_n none l r (constant (F := Ideal) S20000x64 .f32 0x00000000#32) (ix2 p q)
      = ∑ k : Fin 12, l (ix2 p k) * r (ix2 k q) := by
  simp only [matmul]
  rw [Ideal.matmul_constant_zero_apply, ← Equiv.sum_comp (contrEquiv1 dot_S20000x12_S12x64_S20000x64_1_0_0_1_n_n 12 rfl rfl).symm]
  refine Finset.sum_congr rfl fun k _ => ?_
  have hk := contrEquiv1_symm_val dot_S20000x12_S12x64_S20000x64_1_0_0_1_n_n 12 rfl rfl k
  have el : dot_S20000x12_S12x64_S20000x64_1_0_0_1_n_n.lhsIdx (ix2 p q) ((contrEquiv1 dot_S20000x12_S12x64_S20000x64_1_0_0_1_n_n 12 rfl rfl).symm k) = ix2 p k := funext fun a => Fin.ext (by
    match a with
    | ⟨0, _⟩ => exact lhs_rows_0 _ _
    | ⟨1, _⟩ => exact (lhs_rows_1 _ _).trans hk)
  have er : dot_S20000x12_S12x64_S20000x64_1_0_0_1_n_n.rhsIdx (ix2 p q) ((contrEquiv1 dot_S20000x12_S12x64_S20000x64_1_0_0_1_n_n 12 rfl rfl).symm k) = ix2 k q := funext fun a => Fin.ext (by
    match a with
    | ⟨0, _⟩ => exact (rhs_rows_0 _ _).trans hk
    | ⟨1, _⟩ => exact rhs_rows_1 _ _)
  rw [el, er]

/-! ## The body's result at an index -/

/-- The bias row broadcast down the rows, at element (p, q), is the row's entry q. -/
theorem biasRows_apply (b : FVec Ideal S1x64 .f32) (p : Fin 20000) (q : Fin 64) :
    broadcastTo S20000x64 b broadcasts_S1x64_S20000x64 (ix2 p q) = b (ix2 (0 : Fin 1) q) :=
  broadcastTo_apply b broadcasts_S1x64_S20000x64 (ix2 p q) (ix2 (0 : Fin 1) q) (fun a => by
    match a with
    | ⟨0, _⟩ => rfl
    | ⟨1, _⟩ => rfl)

/-- Element (p, q) of what the body stores is the first layer's element of the five loaded blocks. -/
theorem payload_apply (x0 x1 : Vec Ideal S20000x12 .f32) (x2 x3 : Vec Ideal S12x64 .f32) (x4 : Vec Ideal S1x64 .f32)
    (p : Fin 20000) (q : Fin 64) :
    k0_pay1 (F := Ideal) x0 x1 x2 x3 x4 (ix2 p q) = Sage.hidden x0 x1 x2 x3 (fun q => x4 (ix2 (0 : Fin 1) q)) p q := by
  unfold k0_pay1
  simp only [shapeCast_self]
  rw [maximumf_apply, addf_apply, addf_apply, rowsMatmul_apply, rowsMatmul_apply, biasRows_apply, broadcast_apply]
  rfl

/-! ## The blocks a grid point loads, as rows of the arrays -/

variable (V : (c : Dev nD) → (b : Ref sig .tc) → Buf (Elt Ideal) ((c : Thread nD τ).loc b))

/-- The zero offsets of a whole-buffer access, however spelt. -/
theorem zeroOffsets : (![0, 0] : Fin 2 → Nat) = fun _ => 0 := funext fun a => by fin_cases a <;> rfl

/-- The block indices at grid point t: the row-blocked arrays (the two feature arrays and the output) are at row
    block t, column block 0; the weight matrices and the bias row are at block (0, 0) at every point. -/
theorem blockIndices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated-feature block at point t is row 20000·t + p of the array. -/
theorem aggBlock_apply (c : Dev nD) (t : Fin cfg0.N) (p : Fin 20000) (k : Fin 12) (r : Fin 100000)
    (hr : r.val = t.val * 20000 + p.val) :
    iblk0 (F := Ideal) V c 0 t (ix2 p k) = V c main_v24 (ix2 r k) := by
  obtain ⟨e0, e1, -⟩ := blockIndices t
  unfold iblk0
  rw [View.read_apply]
  show V c main_v24 _ = V c main_v24 _
  congr 1
  funext a; apply Fin.ext
  match a with
  | ⟨0, _⟩ => show win0_0.index t (0 : Fin 2) * 20000 + 1 * p.val = r.val; rw [e0, hr]; omega
  | ⟨1, _⟩ => show win0_0.index t (1 : Fin 2) * 12 + 1 * k.val = k.val; rw [e1]; omega

/-- Row p of the node-feature block at point t is row 20000·t + p of the array. -/
theorem selfBlock_apply (c : Dev nD) (t : Fin cfg0.N) (p : Fin 20000) (k : Fin 12) (r : Fin 100000)
    (hr : r.val = t.val * 20000 + p.val) :
    iblk0 (F := Ideal) V c 1 t (ix2 p k) = V c main_arg0 (ix2 r k) := by
  obtain ⟨-, -, e0, e1, -⟩ := blockIndices t
  unfold iblk0
  rw [View.read_apply]
  show V c main_arg0 _ = V c main_arg0 _
  congr 1
  funext a; apply Fin.ext
  match a with
  | ⟨0, _⟩ => show win0_1.index t (0 : Fin 2) * 20000 + 1 * p.val = r.val; rw [e0, hr]; omega
  | ⟨1, _⟩ => show win0_1.index t (1 : Fin 2) * 12 + 1 * k.val = k.val; rw [e1]; omega

/-- The first weight matrix's block at every point is the whole matrix. -/
theorem aggWeights_apply (c : Dev nD) (t : Fin cfg0.N) (k : Fin 12) (q : Fin 64) :
    iblk0 (F := Ideal) V c 2 t (ix2 k q) = V c main_v25 (ix2 k q) := by
  obtain ⟨-, -, -, -, e0, e1, -⟩ := blockIndices t
  unfold iblk0
  rw [View.read_apply]
  show V c main_v25 _ = V c main_v25 _
  congr 1
  funext a; apply Fin.ext
  match a with
  | ⟨0, _⟩ => show win0_2.index t (0 : Fin 2) * 12 + 1 * k.val = k.val; rw [e0]; omega
  | ⟨1, _⟩ => show win0_2.index t (1 : Fin 2) * 64 + 1 * q.val = q.val; rw [e1]; omega

/-- The second weight matrix's block at every point is the whole matrix. -/
theorem selfWeights_apply (c : Dev nD) (t : Fin cfg0.N) (k : Fin 12) (q : Fin 64) :
    iblk0 (F := Ideal) V c 3 t (ix2 k q) = V c main_v26 (ix2 k q) := by
  obtain ⟨-, -, -, -, -, -, e0, e1, -⟩ := blockIndices t
  unfold iblk0
  rw [View.read_apply]
  show V c main_v26 _ = V c main_v26 _
  congr 1
  funext a; apply Fin.ext
  match a with
  | ⟨0, _⟩ => show win0_3.index t (0 : Fin 2) * 12 + 1 * k.val = k.val; rw [e0]; omega
  | ⟨1, _⟩ => show win0_3.index t (1 : Fin 2) * 64 + 1 * q.val = q.val; rw [e1]; omega

/-- The bias row's block at every point is the whole row. -/
theorem biasBlock_apply (c : Dev nD) (t : Fin cfg0.N) (q : Fin 64) :
    iblk0 (F := Ideal) V c 4 t (ix2 (0 : Fin 1) q) = V c main_v27 (ix2 (0 : Fin 1) q) := by
  obtain ⟨-, -, -, -, -, -, -, -, e0, e1, -⟩ := blockIndices t
  unfold iblk0
  rw [View.read_apply]
  show V c main_v27 _ = V c main_v27 _
  congr 1
  funext a; apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-! ## What a grid point writes back -/

/-- The first layer of the arrays as the call finds them. -/
abbrev layer (c : Dev nD) : S100000x64.Idx → EReal :=
  Sage.hiddenArr (V c main_v24) (V c main_arg0) (V c main_v25) (V c main_v26) (fun q => V c main_v27 (ix2 (0 : Fin 1) q))

/-- Point t writes back block t of the first layer: the body's element (p, q) is the layer's element of the loaded
    blocks, the row blocks are rows 20000·t + p of their arrays, and so is the output's block. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 (F := Ideal) V c).after 5 t) = _
  rw [after0_5]
  unfold out0_5
  rw [View.canon_unit_zero zeroOffsets]
  simp only [View.ld_unit_zero (S := S20000x12) zeroOffsets, View.ld_unit_zero (S := S12x64) zeroOffsets,
    View.ld_unit_zero (S := S1x64) zeroOffsets]
  obtain ⟨-, -, -, -, -, -, -, -, -, -, e0, e1⟩ := blockIndices t
  funext j
  obtain ⟨p, q, rfl⟩ : ∃ (p : Fin 20000) (q : Fin 64), j = ix2 p q := ⟨j 0, j 1, eq_ix2 j⟩
  have hp : p.val < 20000 := p.isLt
  have ht : t.val < 5 := t.isLt
  have hrow : t.val * 20000 + p.val < 100000 := by omega
  have hemb : ((cfg0.win 5).blk t).view.emb (ix2 p q) = (ix2 (⟨t.val * 20000 + p.val, hrow⟩ : Fin 100000) q : S100000x64.Idx) := by
    funext a; apply Fin.ext
    match a with
    | ⟨0, _⟩ => show win0_5.index t (0 : Fin 2) * 20000 + 1 * p.val = t.val * 20000 + p.val; rw [e0]; omega
    | ⟨1, _⟩ => show win0_5.index t (1 : Fin 2) * 64 + 1 * q.val = q.val; rw [e1]; omega
  rw [View.read_apply, hemb]
  show k0_pay1 (F := Ideal) _ _ _ _ _ (ix2 p q) = Sage.hidden _ _ _ _ _ (⟨t.val * 20000 + p.val, hrow⟩ : Fin 100000) q
  rw [payload_apply]
  unfold Sage.hidden Sage.lin
  simp only [aggBlock_apply V c t p _ ⟨t.val * 20000 + p.val, hrow⟩ rfl, selfBlock_apply V c t p _ ⟨t.val * 20000 + p.val, hrow⟩ rfl,
    aggWeights_apply V c t, selfWeights_apply V c t, biasBlock_apply V c t]

/-! ## The blocks cover the array -/

/-- An index of the output array is in point t's block iff each coordinate is in the block's range on its axis. -/
theorem mem_block (t : Fin cfg0.N) (i : S100000x64.Idx) :
    i ∈ ((cfg0.win 5).blk t).view.set ↔ ∀ a : Fin 2, win0_5.index t a * S20000x64.size a ≤ (i a).val
      ∧ (i a).val < win0_5.index t a * S20000x64.size a + S20000x64.size a := by
  show i ∈ ((View.whole main_v28).slice (win0_5.rect t)).set ↔ _
  rw [View.set_slice_whole, Rect.mem_set_unit]
  exact Iff.rfl

/-- Row r of the output lies in the block of point r / 20000, and every point writes its block back. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 5 := N_0
  have hlt : (i 0).val / 20000 < cfg0.N := by rw [hN]; omega
  obtain ⟨-, -, -, -, -, -, -, -, -, -, e0, e1⟩ := blockIndices ⟨(i 0).val / 20000, hlt⟩
  have e0' : win0_5.index ⟨(i 0).val / 20000, hlt⟩ (0 : Fin 2) = (i 0).val / 20000 := e0
  refine ⟨⟨(i 0).val / 20000, hlt⟩, flush0_5 _, ?_⟩
  rw [mem_block]
  intro a
  match a with
  | ⟨0, _⟩ =>
    show win0_5.index ⟨(i 0).val / 20000, hlt⟩ (0 : Fin 2) * 20000 ≤ (i 0).val
      ∧ (i 0).val < win0_5.index ⟨(i 0).val / 20000, hlt⟩ (0 : Fin 2) * 20000 + 20000
    rw [e0']; omega
  | ⟨1, _⟩ =>
    show win0_5.index ⟨(i 0).val / 20000, hlt⟩ (1 : Fin 2) * 64 ≤ (i 1).val
      ∧ (i 1).val < win0_5.index ⟨(i 0).val / 20000, hlt⟩ (1 : Fin 2) * 64 + 64
    rw [e1]; omega

/-! ## The array after the call -/

/-- After the first pallas_call the output array holds the first layer of the arrays the call found. -/
theorem final0 (c : Dev nD) :
    (dat0 (F := Ideal) V c).arrAt 5 cfg0.N
      = Sage.hiddenArr (V c main_v24) (V c main_arg0) (V c main_v25) (V c main_v26) (fun q => V c main_v27 (ix2 (0 : Fin 1) q)) :=
  (dat0 (F := Ideal) V c).arrAt_eq_of_cover 5 (layer V c) (fun t _ => flushed_eq V c t) covered

end Cert.KernelIdeal.Region0

end
-- ==== Proof.Region1.lean ====
/-
  The second kernel call's output array as one function of the arrays it reads.

  The body's stored value, read at row p and class i of a block of 5000 rows, is the constrained output of the
  specification at the six loaded blocks: two dot products over the 64 hidden features into a zero accumulator, the
  bias row added, the logistic function, and the largest product score[p,j]·r[i,j] over the 13 classes j, folded from
  the word of −∞. Grid point t writes rows 5000·t … 5000·t+4999 back, the two row-blocked inputs are read at the same
  rows and the four small inputs whole, so each write-back is a block of the whole-array function; the twenty blocks
  cover the 100000 rows (row r lies in block r / 5000), hence the array ends holding that function.
-/
import proofs.«160143_j57294863729409_1_alg».proof.Proof.Gen.KernelIdeal.Frame
import proofs.«160143_j57294863729409_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-! ## The stored value at an index -/

section Payload

/-- The contracted coordinate of the left operand's index is the contraction index; its row is the output's row. -/
theorem lhs_row (i : S5000x13.Idx) (q : dot_S5000x64_S64x13_S5000x13_1_0_0_1_n_n.contr.Idx) :
    (dot_S5000x64_S64x13_S5000x13_1_0_0_1_n_n.lhsIdx i q 0).val = (i 0).val := by
  unfold DotDims.lhsIdx
  rw [dif_neg (show ¬(0 : Fin S5000x64.rank) ∈ dot_S5000x64_S64x13_S5000x13_1_0_0_1_n_n.lhsBatch by decide), dif_pos (show (0 : Fin S5000x64.rank) ∈ dot_S5000x64_S64x13_S5000x13_1_0_0_1_n_n.lhsNonContracting by decide)]
  rfl
theorem lhs_contr (i : S5000x13.Idx) (q : dot_S5000x64_S64x13_S5000x13_1_0_0_1_n_n.contr.Idx) :
    (dot_S5000x64_S64x13_S5000x13_1_0_0_1_n_n.lhsIdx i q 1).val = (q ⟨0, by decide⟩).val :=
  dot_S5000x64_S64x13_S5000x13_1_0_0_1_n_n.lhsIdx_val_of_single rfl i q
theorem rhs_contr (i : S5000x13.Idx) (q : dot_S5000x64_S64x13_S5000x13_1_0_0_1_n_n.contr.Idx) :
    (dot_S5000x64_S64x13_S5000x13_1_0_0_1_n_n.rhsIdx i q 0).val = (q ⟨0, by decide⟩).val :=
  dot_S5000x64_S64x13_S5000x13_1_0_0_1_n_n.rhsIdx_val_of_single rfl i q
theorem rhs_col (i : S5000x13.Idx) (q : dot_S5000x64_S64x13_S5000x13_1_0_0_1_n_n.contr.Idx) :
    (dot_S5000x64_S64x13_S5000x13_1_0_0_1_n_n.rhsIdx i q 1).val = (i 1).val := by
  unfold DotDims.rhsIdx
  rw [dif_neg (show ¬(1 : Fin S64x13.rank) ∈ dot_S5000x64_S64x13_S5000x13_1_0_0_1_n_n.rhsBatch by decide), dif_pos (show (1 : Fin S64x13.rank) ∈ dot_S5000x64_S64x13_S5000x13_1_0_0_1_n_n.rhsNonContracting by decide)]
  rfl

/-- A product of a [5000,64] block and a [64,13] matrix into a zero accumulator, at (p, q): the dot product of row p
    and column q over the 64 shared coordinates. -/
theorem matmul_apply_ix2 {φ₁ φ₂ : FTy} (l : FVec Ideal S5000x64 φ₁) (r : FVec Ideal S64x13 φ₂) (p : Fin 5000) (q : Fin 13) :
    matmul dot_S5000x64_S64x13_S5000x13_1_0_0_1_n_n none l r (constant (F := Ideal) S5000x13 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x13_S5000x13_1_0_0_1_n_n 64 rfl rfl).symm]
  refine Finset.sum_congr rfl fun k _ => ?_
  have hk := ValueIdx.contrEquiv1_symm_val dot_S5000x64_S64x13_S5000x13_1_0_0_1_n_n 64 rfl rfl k
  have el : dot_S5000x64_S64x13_S5000x13_1_0_0_1_n_n.lhsIdx (ix2 p q) ((ValueIdx.contrEquiv1 dot_S5000x64_S64x13_S5000x13_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x13_S5000x13_1_0_0_1_n_n.rhsIdx (ix2 p q) ((ValueIdx.contrEquiv1 dot_S5000x64_S64x13_S5000x13_1_0_0_1_n_n 64 rfl rfl).symm k) = ix2 k q := funext fun a => Fin.ext (by
    match a with
    | ⟨0, _⟩ => exact (rhs_contr _ _).trans hk
    | ⟨1, _⟩ => exact rhs_col _ _)
  rw [el, er]

/-- The source index over (p, i) with k inserted on the reduced axis is (p, i, k). -/
theorem lift_ix2 (p : Fin 5000) (i k : Fin 13) :
    reduces_S5000x13x13_S5000x13.lift (ix2 p i) k = ix3 p i k :=
  funext fun a => Fin.ext (by
    match a with
    | ⟨0, _⟩ => rfl
    | ⟨1, _⟩ => rfl
    | ⟨2, _⟩ => rfl)

/-- The maximum over the last axis of a [5000,13,13] array, at (p, i): the fold of max over k of the array at
    (p, i, k), from the accumulator word's value. -/
theorem max_last_apply (src : FVec Ideal S5000x13x13 .f32) (hφ : FKind.Formats FTy.f32)
    (hacc : (0xFF800000#32 : BitVec 32) = 0xFF800000#32) (p : Fin 5000) (i : Fin 13) :
    multiReduction (F := Ideal) .maximumf [2] S5000x13 src 0xFF800000#32 reduces_S5000x13x13_S5000x13 hφ hacc (ix2 p i)
      = (Finset.univ : Finset (Fin 13)).fold max (Ideal.ofBits .f32 0xFF800000#32) (fun k => src (ix3 p i k)) := by
  refine (Ideal.multiReduction_maximumf_single src 0xFF800000#32 reduces_S5000x13x13_S5000x13 hφ hacc (ix2 p i)).trans ?_
  show (Finset.univ : Finset (Fin 13)).fold max (Ideal.ofBits .f32 0xFF800000#32) (fun k => src (reduces_S5000x13x13_S5000x13.lift (ix2 p i) k)) = _
  exact Finset.fold_congr fun k _ => congrArg src (lift_ix2 p i k)

/-- A [5000,13] array cast to [5000,1,13] reads, at (p, u, j), the operand at (p, j). -/
theorem cast_mid_unit_apply {α : Type} (x : S5000x13.Idx → α) (p : Fin 5000) (u : Fin 1) (j : Fin 13) :
    shapeCast S5000x1x13 x shapeCasts_S5000x13_S5000x1x13 (ix3 p u j) = x (ix2 p j) :=
  shapeCast_apply x _ _ _ (by
    have hu : u.val = 0 := by omega
    rw [Shape.rowMajor_val_three, Shape.rowMajor_val_two]
    show p.val * 13 + j.val = (p.val * 1 + u.val) * 13 + j.val
    rw [hu, Nat.mul_one, Nat.add_zero])

/-- A [5000,1,13] array broadcast to [5000,13,13] reads, at (p, i, j), the operand at (p, 0, j). -/
theorem bcast_mid_apply {α : Type} (x : S5000x1x13.Idx → α) (p : Fin 5000) (i j : Fin 13) :
    broadcastTo S5000x13x13 x broadcasts_S5000x1x13_S5000x13x13 (ix3 p i j) = x (ix3 p (0 : Fin 1) j) := by
  refine broadcastTo_apply x _ (ix3 p i j) (ix3 p (0 : Fin 1) j) fun ax => ?_
  match ax with
  | ⟨0, _⟩ => rfl
  | ⟨1, _⟩ => rfl
  | ⟨2, _⟩ => rfl

/-- A [1,13,13] array broadcast to [5000,13,13] reads, at (p, i, j), the operand at (0, i, j). -/
theorem bcast_lead_apply {α : Type} (x : S1x13x13.Idx → α) (p : Fin 5000) (i j : Fin 13) :
    broadcastTo S5000x13x13 x broadcasts_S1x13x13_S5000x13x13 (ix3 p i j) = x (ix3 (0 : Fin 1) i j) := by
  refine broadcastTo_apply x _ (ix3 p i j) (ix3 (0 : Fin 1) i j) fun ax => ?_
  match ax with
  | ⟨0, _⟩ => rfl
  | ⟨1, _⟩ => rfl
  | ⟨2, _⟩ => rfl

/-- The linear part of the body at (p, q): the two dot products into zero accumulators, added, plus the bias row. -/
theorem lin_apply (x0 x1 : Vec Ideal S5000x64 .f32) (x2 x3 : Vec Ideal S64x13 .f32) (x4 : Vec Ideal S1x13 .f32)
    (p : Fin 5000) (q : Fin 13) :
    addf (addf
        (matmul dot_S5000x64_S64x13_S5000x13_1_0_0_1_n_n none
          (truncf .bf16 (shapeCast S5000x64 x0 shapeCasts_S5000x64_S5000x64) bitsLt_bf16_f32)
          (truncf .bf16 (shapeCast S64x13 x2 shapeCasts_S64x13_S64x13) bitsLt_bf16_f32)
          (constant (F := Ideal) S5000x13 .f32 0x00000000#32))
        (matmul dot_S5000x64_S64x13_S5000x13_1_0_0_1_n_n none
          (truncf .bf16 (shapeCast S5000x64 x1 shapeCasts_S5000x64_S5000x64) bitsLt_bf16_f32)
          (truncf .bf16 (shapeCast S64x13 x3 shapeCasts_S64x13_S64x13) bitsLt_bf16_f32)
          (constant (F := Ideal) S5000x13 .f32 0x00000000#32)))
      (broadcastTo S5000x13 (shapeCast S1x13 x4 shapeCasts_S1x13_S1x13) broadcasts_S1x13_S5000x13) (ix2 p q)
      = Sage.lin x0 x1 x2 x3 (fun q => x4 (ix2 (0 : Fin 1) q)) p q := by
  rw [addf_apply, addf_apply, matmul_apply_ix2, matmul_apply_ix2, broadcastTo_1b_ab_apply]
  simp only [shapeCast_self, truncf_apply]
  rfl

/-- THE STORED VALUE at (p, i) of a block: the constrained output of the six loaded blocks. -/
theorem pay_apply (x0 x1 : Vec Ideal S5000x64 .f32) (x2 x3 : Vec Ideal S64x13 .f32) (x4 : Vec Ideal S1x13 .f32)
    (x5 : Vec Ideal S13x13 .f32) (p : Fin 5000) (i : Fin 13) :
    k1_pay1 (F := Ideal) x0 x1 x2 x3 x4 x5 (ix2 p i)
      = Sage.constrained x0 x1 x2 x3 (fun q => x4 (ix2 (0 : Fin 1) q)) x5 p i := by
  unfold k1_pay1
  refine (max_last_apply _ _ _ p i).trans ?_
  unfold Sage.constrained Sage.score
  refine Finset.fold_congr fun j _ => ?_
  rw [mulf_apply, bcast_mid_apply, bcast_lead_apply, cast_mid_unit_apply, shapeCast_ab_1ab_apply]
  show FloatOps.logistic _ * _ = _
  rw [Ideal.logistic_def, lin_apply]

end Payload

/-! ## From blocks to the array -/

section Blocks

variable (V : (c : Dev nD) → (b : Ref sig .tc) → Buf (Elt Ideal) ((c : Thread nD τ).loc b))

/-- The stored block as one function of its index. -/
theorem pay_block (x0 x1 : Vec Ideal S5000x64 .f32) (x2 x3 : Vec Ideal S64x13 .f32) (x4 : Vec Ideal S1x13 .f32)
    (x5 : Vec Ideal S13x13 .f32) :
    k1_pay1 (F := Ideal) x0 x1 x2 x3 x4 x5
      = fun j => Sage.constrained x0 x1 x2 x3 (fun q => x4 (ix2 (0 : Fin 1) q)) x5 (j 0) (j 1) := by
  funext j
  obtain ⟨p, i, rfl⟩ : ∃ (p : Fin 5000) (i : Fin 13), j = ix2 p i := ⟨j 0, j 1, eq_ix2 j⟩
  exact pay_apply x0 x1 x2 x3 x4 x5 p i

/-- The constrained output reads its two row operands only along row p and its class matrix only along row i: where
    those rows agree with rows P and I of other arrays, the outputs agree. -/
theorem constrained_rows {n N a b : ℕ} (u v : (⟨2, ![n, a]⟩ : Shape).Idx → EReal) (U W : (⟨2, ![N, a]⟩ : Shape).Idx → EReal)
    (wu wv : (⟨2, ![a, b]⟩ : Shape).Idx → EReal) (bias : Fin b → EReal) (r R : (⟨2, ![b, b]⟩ : Shape).Idx → EReal)
    (p : Fin n) (P : Fin N) (i I : Fin b)
    (hu : ∀ k, u (ix2 p k) = U (ix2 P k)) (hv : ∀ k, v (ix2 p k) = W (ix2 P k)) (hr : ∀ j, r (ix2 i j) = R (ix2 I j)) :
    Sage.constrained u v wu wv bias r p i = Sage.constrained U W wu wv bias R P I := by
  unfold Sage.constrained Sage.score Sage.lin
  simp only [hu, hv, hr]

theorem zero_offsets : (![0, 0] : Fin 2 → Nat) = fun _ => 0 := funext fun a => by fin_cases a <;> rfl

/-- The printed index maps over the twenty grid points: the row-blocked windows sit at block row t, column block 0;
    the small windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The whole-array function the output ends holding. -/
abbrev whole (c : Dev nD) : S100000x13.Idx → EReal :=
  Sage.constrainedArr (V c main_v40) (V c main_v28) (V c main_v41) (V c main_v42) (fun q => V c main_v43 (ix2 (0 : Fin 1) q)) (V c main_arg8)

/-- WHAT POINT t WRITES BACK is block t of the whole-array function: the two row-blocked inputs are read at the rows
    of the output's block, the four small inputs whole. -/
theorem flushed_eq (c : Dev nD) (t : Fin cfg1.N) :
    (dat1 (F := Ideal) V c).flushed 6 t = ((cfg1.win 6).blk t).view.read (Elt Ideal) (whole V c) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S64x13) zero_offsets,
    View.ld_unit_zero (S := S1x13) zero_offsets, View.ld_unit_zero (S := S13x13) zero_offsets]
  rw [pay_block]
  obtain ⟨e00, e01, e10, e11, e20, e21, e30, e31, e40, e41, e50, e51, e60, e61⟩ := idx_facts t
  have h2 : iblk1 V c 2 t = V c main_v41 := by
    funext y
    show V c main_v41 (((cfg1.win 2).blk t).view.emb y) = V c main_v41 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 13 + 1 * (y 1).val = (y 1).val; omega
  have h3 : iblk1 V c 3 t = V c main_v42 := by
    funext y
    show V c main_v42 (((cfg1.win 3).blk t).view.emb y) = V c main_v42 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 13 + 1 * (y 1).val = (y 1).val; omega
  have h4 : iblk1 V c 4 t = V c main_v43 := by
    funext y
    show V c main_v43 (((cfg1.win 4).blk t).view.emb y) = V c main_v43 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 13 + 1 * (y 1).val = (y 1).val; omega
  funext j
  have h0 : ∀ k : Fin 64, iblk1 V c 0 t (ix2 (j 0) k) = V c main_v40 (ix2 ((((cfg1.win 6).blk t).view.emb j) 0) k) := fun k => by
    show V c main_v40 (((cfg1.win 0).blk t).view.emb (ix2 (j 0) k)) = _
    refine congrArg _ (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 64 + 1 * k.val = k.val; omega
  have h1 : ∀ k : Fin 64, iblk1 V c 1 t (ix2 (j 0) k) = V c main_v28 (ix2 ((((cfg1.win 6).blk t).view.emb j) 0) k) := fun k => by
    show V c main_v28 (((cfg1.win 1).blk t).view.emb (ix2 (j 0) k)) = _
    refine congrArg _ (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 64 + 1 * k.val = k.val; omega
  have h5 : ∀ k : Fin 13, iblk1 V c 5 t (ix2 (j 1) k) = V c main_arg8 (ix2 ((((cfg1.win 6).blk t).view.emb j) 1) k) := fun k => by
    show V c main_arg8 (((cfg1.win 5).blk t).view.emb (ix2 (j 1) k)) = _
    refine congrArg _ (funext fun a => Fin.ext ?_)
    match a with
    | ⟨0, _⟩ => show win1_5.index t (0 : Fin 2) * 13 + 1 * (j 1).val = win1_6.index t (1 : Fin 2) * 13 + 1 * (j 1).val; omega
    | ⟨1, _⟩ => show win1_5.index t (1 : Fin 2) * 13 + 1 * k.val = k.val; omega
  show Sage.constrained (iblk1 V c 0 t) (iblk1 V c 1 t) (iblk1 V c 2 t) (iblk1 V c 3 t) (fun q => iblk1 V c 4 t (ix2 (0 : Fin 1) q)) (iblk1 V c 5 t) (j 0) (j 1)
    = Sage.constrained (V c main_v40) (V c main_v28) (V c main_v41) (V c main_v42) (fun q => V c main_v43 (ix2 (0 : Fin 1) q)) (V c main_arg8)
        ((((cfg1.win 6).blk t).view.emb j) 0) ((((cfg1.win 6).blk t).view.emb j) 1)
  rw [h2, h3, h4]
  exact constrained_rows _ _ _ _ _ _ _ _ _ _ _ _ _ h0 h1 h5

/-- An index of the array is in point t's block iff each coordinate is in the block's range on its axis. -/
theorem mem_blk (t : Fin cfg1.N) (i : S100000x13.Idx) :
    i ∈ ((cfg1.win 6).blk t).view.set ↔ ∀ a : Fin 2, win1_6.index t a * S5000x13.size a ≤ (i a).val ∧ (i a).val < win1_6.index t a * S5000x13.size a + S5000x13.size a := by
  show i ∈ ((View.whole main_v44).slice (win1_6.rect t)).set ↔ _
  rw [View.set_slice_whole, Rect.mem_set_unit]
  exact Iff.rfl

/-- Every index of the output array lies in a written-back block: row r in the block of point r / 5000. -/
theorem cover (i : S100000x13.Idx) :
    ∃ t : Fin cfg1.N, (cfg1.win 6).flush t = true ∧ i ∈ ((cfg1.win 6).blk t).view.set := by
  have hi0 : (i 0).val < 100000 := (i 0).isLt
  have hi1 : (i 1).val < 13 := (i 1).isLt
  have hN : cfg1.N = 20 := N_1
  refine ⟨⟨(i 0).val / 5000, by rw [hN]; omega⟩, flush1_6 _, ?_⟩
  rw [mem_blk]
  obtain ⟨-, -, -, -, -, -, -, -, -, -, -, -, e60, e61⟩ := idx_facts ⟨(i 0).val / 5000, by rw [hN]; omega⟩
  intro a
  match a with
  | ⟨0, _⟩ =>
    show win1_6.index _ (0 : Fin 2) * 5000 ≤ (i 0).val ∧ (i 0).val < win1_6.index _ (0 : Fin 2) * 5000 + 5000
    rw [e60]; show (i 0).val / 5000 * 5000 ≤ (i 0).val ∧ (i 0).val < (i 0).val / 5000 * 5000 + 5000; omega
  | ⟨1, _⟩ =>
    show win1_6.index _ (1 : Fin 2) * 13 ≤ (i 1).val ∧ (i 1).val < win1_6.index _ (1 : Fin 2) * 13 + 13
    rw [e61]; omega

/-- THE OUTPUT ARRAY after the call: the constrained output of the arrays the call reads, as it finds them. -/
theorem final1 (c : Dev nD) :
    (dat1 (F := Ideal) V c).arrAt 6 cfg1.N
      = Sage.constrainedArr (V c main_v40) (V c main_v28) (V c main_v41) (V c main_v42) (fun q => V c main_v43 (ix2 (0 : Fin 1) q)) (V c main_arg8) :=
  (dat1 V c).arrAt_eq_of_cover 6 _ (fun t _ => flushed_eq V c t) cover

end Blocks

end Cert.KernelIdeal.Region1

end
-- ==== Proof.HostTerms.lean ====
/-
  The host side of the kernel's program as functions of arrays.

  Both pallas_calls are fed by the same neighbourhood mean: the rows of a node feature array `x` are gathered at the
  edges' source nodes, added into the rows of their destination nodes, and each row is multiplied by the reciprocal
  of its node's in-degree clamped below at one. `srcIdx` and `dstIdx` are the two index columns read off the edge
  list (a negative source index wraps by the node count), `recipDeg` the column of reciprocals, `mean12` and
  `mean64` the mean for feature widths 12 and 64.
-/
import proofs.«160143_j57294863729409_1_alg».proof.Proof.Gen.KernelIdeal

noncomputable section

namespace Cert.KernelIdeal.Hand

open Cert.KernelIdeal Cert.KernelIdeal.Facts₀ Cert.KernelIdeal.Facts Idealize.ShloMosaic

variable {F : FTy → Type} [FloatOps F]

/-- Row `r` of the edge list as a vector of edges. -/
def srcRow (x1 : (⟨S2x3200000, .i32⟩ : BufTy).Contents (Elt F)) : (⟨S3200000, .i32⟩ : BufTy).Contents (Elt F) :=
  shapeCast _ (extractStridedSlice S1x3200000 ![0, 0] x1 slices_S2x3200000_S1x3200000_0_0) shapeCasts_S1x3200000_S3200000

def dstRow (x1 : (⟨S2x3200000, .i32⟩ : BufTy).Contents (Elt F)) : (⟨S3200000, .i32⟩ : BufTy).Contents (Elt F) :=
  shapeCast _ (extractStridedSlice S1x3200000 ![1, 0] x1 slices_S2x3200000_S1x3200000_1_0) shapeCasts_S1x3200000_S3200000

/-- The destination nodes as an index column. -/
def dstIdx (x1 : (⟨S2x3200000, .i32⟩ : BufTy).Contents (Elt F)) : (⟨S3200000x1, .i32⟩ : BufTy).Contents (Elt F) :=
  broadcastInDim S3200000x1 ![0] bcast_S3200000_S3200000x1_0 (dstRow (F := F) x1)

/-- The source nodes as an index column, a negative index wrapped by the node count. -/
def srcIdx (x1 : (⟨S2x3200000, .i32⟩ : BufTy).Contents (Elt F)) : (⟨S3200000x1, .i32⟩ : BufTy).Contents (Elt F) :=
  broadcastInDim S3200000x1 ![0] bcast_S3200000_S3200000x1_0
    (select (cmpi .slt (srcRow (F := F) x1) (broadcastInDim S3200000 ![] bcast_S_S3200000 (constantI S_ 32 0#32)))
      (addi (srcRow (F := F) x1) (broadcastInDim S3200000 ![] bcast_S_S3200000 (constantI S_ 32 100000#32)))
      (srcRow (F := F) x1))

/-- Each node's in-degree: ones added at the destination nodes. -/
def degree (x1 : (⟨S2x3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant (F := F) S_ .f32 0x00000000#32))
    (dstIdx (F := F) x1)
    (broadcastInDim S3200000 ![] bcast_S_S3200000 (constant (F := F) S_ .f32 0x3F800000#32))

/-- The in-degree clamped below at one. -/
def degClamped (x1 : (⟨S2x3200000, .i32⟩ : BufTy).Contents (Elt F)) : (⟨S100000, .f32⟩ : BufTy).Contents (Elt F) :=
  maximumf (degree (F := F) x1) (broadcastInDim S100000 ![] bcast_S_S100000 (constant (F := F) S_ .f32 0x3F800000#32))

/-- The column of reciprocals of the clamped in-degree. -/
def recipDeg (x1 : (⟨S2x3200000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant (F := F) S_ .f32 0x3F800000#32)) (degClamped (F := F) x1))

/-- The neighbourhood sums of a 12-wide feature array. -/
def nbrSum12 (x : (⟨S100000x12, .f32⟩ : BufTy).Contents (Elt F)) (x1 : (⟨S2x3200000, .i32⟩ : BufTy).Contents (Elt F)) :
    (⟨S100000x12, .f32⟩ : BufTy).Contents (Elt F) :=
  Host.scatterAdd scatter_S100000x12_S3200000x1_S3200000x12_1_0_0_1
    (broadcastInDim S100000x12 ![] bcast_S_S100000x12 (constant (F := F) S_ .f32 0x00000000#32))
    (dstIdx (F := F) x1)
    (Host.gather gather_S100000x12_S3200000x1_S3200000x12_1_0_n_n_0_1_112 x (srcIdx (F := F) x1))

/-- The neighbourhood mean of a 12-wide feature array: the sums times the reciprocal column. -/
def mean12 (x : (⟨S100000x12, .f32⟩ : BufTy).Contents (Elt F)) (x1 : (⟨S2x3200000, .i32⟩ : BufTy).Contents (Elt F)) :
    (⟨S100000x12, .f32⟩ : BufTy).Contents (Elt F) :=
  mulf (nbrSum12 (F := F) x x1) (broadcastInDim S100000x12 ![0, 1] bcast_S100000x1_S100000x12_0_1 (recipDeg (F := F) x1))

/-- The neighbourhood sums of a 64-wide feature array. -/
def nbrSum64 (h : (⟨S100000x64, .f32⟩ : BufTy).Contents (Elt F)) (x1 : (⟨S2x3200000, .i32⟩ : BufTy).Contents (Elt F)) :
    (⟨S100000x64, .f32⟩ : BufTy).Contents (Elt F) :=
  Host.scatterAdd scatter_S100000x64_S3200000x1_S3200000x64_1_0_0_1
    (broadcastInDim S100000x64 ![] bcast_S_S100000x64 (constant (F := F) S_ .f32 0x00000000#32))
    (dstIdx (F := F) x1)
    (Host.gather gather_S100000x64_S3200000x1_S3200000x64_1_0_n_n_0_1_164 h (srcIdx (F := F) x1))

/-- The neighbourhood mean of a 64-wide feature array. -/
def mean64 (h : (⟨S100000x64, .f32⟩ : BufTy).Contents (Elt F)) (x1 : (⟨S2x3200000, .i32⟩ : BufTy).Contents (Elt F)) :
    (⟨S100000x64, .f32⟩ : BufTy).Contents (Elt F) :=
  mulf (nbrSum64 (F := F) h x1) (broadcastInDim S100000x64 ![0, 1] bcast_S100000x1_S100000x64_0_1 (recipDeg (F := F) x1))

end Cert.KernelIdeal.Hand

end
-- ==== Proof.HostK.lean ====
/-
  What the host operations of the kernel's program leave in the arrays its two kernel regions read.

  Before the first region the program computes the neighbourhood mean of the 12-wide node features (the rows gathered
  at the edges' source nodes, added at their destination nodes, each row times the reciprocal of its clamped
  in-degree), transposes the two weight matrices and reads the bias as a one-row matrix. Between the regions it does
  the same with the 64-wide hidden array the first region produced. Each lemma reads one array after the operations
  and names what it holds as a function of the launch contents.
-/
import proofs.«160143_j57294863729409_1_alg».proof.Proof.Gen.KernelIdeal.Frame
import proofs.«160143_j57294863729409_1_alg».proof.Proof.HostTerms
import Idealize.ShloMosaic.Lib.StableHlo.Run

set_option maxRecDepth 16384

noncomputable section

open Idealize.ShloMosaic Idealize.ShloMosaic.TcCoe Idealize.SL.Sem

namespace Cert.KernelIdeal.HostK

open Cert.KernelIdeal Cert.KernelIdeal.Gen Cert.KernelIdeal.Hand

variable {F : FTy → Type} [FloatOps F]
variable (m : (ℓ : Loc nD τ sig) → Buf (Elt F) ℓ) (ρ : Dev nD → PrngReg)

/-! ## Before the first region -/

/-- The source-node row of the edge list. -/
theorem W1_v1 (c : Dev nD) :
    W1 m ρ c (Proc.devRef .tc main_v1) = srcRow (F := F) (m ((c : Thread nD τ).loc main_arg1)) := by
  show StableHlo.after hostOps0 (W0 m ρ c) (Proc.devRef .tc main_v1) = _
  after_results_simp
  rfl

/-- The destination-node row of the edge list. -/
theorem W1_v3 (c : Dev nD) :
    W1 m ρ c (Proc.devRef .tc main_v3) = dstRow (F := F) (m ((c : Thread nD τ).loc main_arg1)) := by
  show StableHlo.after hostOps0 (W0 m ρ c) (Proc.devRef .tc main_v3) = _
  after_results_simp
  rfl

/-- The column of reciprocals of the clamped in-degree. -/
theorem W1_v12 (c : Dev nD) :
    W1 m ρ c (Proc.devRef .tc main_v12) = recipDeg (F := F) (m ((c : Thread nD τ).loc main_arg1)) := by
  show StableHlo.after hostOps0 (W0 m ρ c) (Proc.devRef .tc main_v12) = _
  after_results_simp
  rfl

/-- The edge list is an argument: no host operation writes it. -/
theorem W1_arg1 (c : Dev nD) :
    W1 m ρ c (Proc.devRef .tc main_arg1) = m ((c : Thread nD τ).loc main_arg1) := by
  show StableHlo.after hostOps0 (W0 m ρ c) (Proc.devRef .tc main_arg1) = _
  after_results_simp

/-- The neighbourhood mean of the node features. -/
theorem V1_v24 (c : Dev nD) :
    V1 m ρ c main_v24 = mean12 (F := F) (m ((c : Thread nD τ).loc main_arg0)) (m ((c : Thread nD τ).loc main_arg1)) := by
  show StableHlo.after hostOps0 (W0 m ρ c) (Proc.devRef .tc main_v24) = _
  after_results_simp
  rfl

/-- The node features are an argument: no host operation writes them. -/
theorem V1_arg0 (c : Dev nD) : V1 m ρ c main_arg0 = m ((c : Thread nD τ).loc main_arg0) := by
  show StableHlo.after hostOps0 (W0 m ρ c) (Proc.devRef .tc main_arg0) = _
  after_results_simp

/-- The weight matrix of the aggregated rows, transposed. -/
theorem V1_v25 (c : Dev nD) :
    V1 m ρ c main_v25 = transpose S12x64 [1, 0] (m ((c : Thread nD τ).loc main_arg2)) Facts₀.transposes_S64x12_S12x64_1_0 := by
  show StableHlo.after hostOps0 (W0 m ρ c) (Proc.devRef .tc main_v25) = _
  after_results_simp

/-- The weight matrix of the node's own row, transposed. -/
theorem V1_v26 (c : Dev nD) :
    V1 m ρ c main_v26 = transpose S12x64 [1, 0] (m ((c : Thread nD τ).loc main_arg3)) Facts₀.transposes_S64x12_S12x64_1_0 := by
  show StableHlo.after hostOps0 (W0 m ρ c) (Proc.devRef .tc main_v26) = _
  after_results_simp

/-- The bias as a one-row matrix. -/
theorem V1_v27 (c : Dev nD) :
    V1 m ρ c main_v27 = shapeCast _ (m ((c : Thread nD τ).loc main_arg4)) Facts₀.shapeCasts_S64_S1x64 := by
  show StableHlo.after hostOps0 (W0 m ρ c) (Proc.devRef .tc main_v27) = _
  after_results_simp
  rfl

/-! ## Between the regions

The first region leaves its output array, the hidden features, at what its pipeline wrote; every array it does not
own is as the first stretch of host operations left it. -/

/-- The hidden features: the first region's output array. -/
theorem W2_v28 (c : Dev nD) :
    W2 m ρ c (Proc.devRef .tc main_v28) = (dat0 (V1 m ρ) c).arrAt 5 cfg0.N := W2_arr m ρ c 5

theorem W2_v1 (c : Dev nD) :
    W2 m ρ c (Proc.devRef .tc main_v1) = srcRow (F := F) (m ((c : Thread nD τ).loc main_arg1)) :=
  (W2_of_ne m ρ c main_v1 (by decide)).trans (W1_v1 m ρ c)

theorem W2_v3 (c : Dev nD) :
    W2 m ρ c (Proc.devRef .tc main_v3) = dstRow (F := F) (m ((c : Thread nD τ).loc main_arg1)) :=
  (W2_of_ne m ρ c main_v3 (by decide)).trans (W1_v3 m ρ c)

theorem W2_v12 (c : Dev nD) :
    W2 m ρ c (Proc.devRef .tc main_v12) = recipDeg (F := F) (m ((c : Thread nD τ).loc main_arg1)) :=
  (W2_of_ne m ρ c main_v12 (by decide)).trans (W1_v12 m ρ c)

/-- An argument neither the first stretch of host operations nor the first region writes. -/
theorem W2_arg5 (c : Dev nD) :
    W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp

theorem W2_arg6 (c : Dev nD) :
    W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp

theorem W2_arg7 (c : Dev nD) :
    W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp

theorem W2_arg8 (c : Dev nD) :
    W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp

/-- The hidden features reach the second region as the first left them. -/
theorem V3_v28 (c : Dev nD) : V3 m ρ c main_v28 = (dat0 (V1 m ρ) c).arrAt 5 cfg0.N := by
  show StableHlo.after hostOps1 (W2 m ρ c) (Proc.devRef .tc main_v28) = _
  after_results_simp
  exact W2_v28 m ρ c

/-- The neighbourhood mean of the hidden features. -/
theorem V3_v40 (c : Dev nD) :
    V3 m ρ c main_v40 = mean64 (F := F) ((dat0 (V1 m ρ) c).arrAt 5 cfg0.N) (m ((c : Thread nD τ).loc main_arg1)) := by
  show StableHlo.after hostOps1 (W2 m ρ c) (Proc.devRef .tc main_v40) = _
  after_results_simp
  rw [W2_v28, W2_v1, W2_v3, W2_v12]
  rfl

/-- The second layer's weight matrix of the aggregated rows, transposed. -/
theorem V3_v41 (c : Dev nD) :
    V3 m ρ c main_v41 = transpose S64x13 [1, 0] (m ((c : Thread nD τ).loc main_arg5)) Facts₀.transposes_S13x64_S64x13_1_0 := by
  show StableHlo.after hostOps1 (W2 m ρ c) (Proc.devRef .tc main_v41) = _
  after_results_simp
  rw [W2_arg5]

/-- The second layer's weight matrix of the node's own row, transposed. -/
theorem V3_v42 (c : Dev nD) :
    V3 m ρ c main_v42 = transpose S64x13 [1, 0] (m ((c : Thread nD τ).loc main_arg6)) Facts₀.transposes_S13x64_S64x13_1_0 := by
  show StableHlo.after hostOps1 (W2 m ρ c) (Proc.devRef .tc main_v42) = _
  after_results_simp
  rw [W2_arg6]

/-- The second layer's bias as a one-row matrix. -/
theorem V3_v43 (c : Dev nD) :
    V3 m ρ c main_v43 = shapeCast _ (m ((c : Thread nD τ).loc main_arg7)) Facts₀.shapeCasts_S13_S1x13 := by
  show StableHlo.after hostOps1 (W2 m ρ c) (Proc.devRef .tc main_v43) = _
  after_results_simp
  rw [W2_arg7]
  rfl

/-- The class-hierarchy matrix is an argument nothing before the second region writes. -/
theorem V3_arg8 (c : Dev nD) : V3 m ρ c main_arg8 = m ((c : Thread nD τ).loc main_arg8) := by
  show StableHlo.after hostOps1 (W2 m ρ c) (Proc.devRef .tc main_arg8) = _
  after_results_simp
  exact W2_arg8 m ρ c

end Cert.KernelIdeal.HostK

end
-- ==== Proof.KernelResult.lean ====
/-
  The kernel program's result as one function of the launch contents.

  The first pallas_call writes, block of rows by block of rows, the first layer's array: the clamped linear layer of
  the neighbourhood mean of the node features and of the features themselves. The host operations between the calls
  take the neighbourhood mean of that array. The second pallas_call writes the constrained scores of the second
  layer over the mean and the array itself. Each array a call reads is what the host operations before it left;
  substituting those, stage by stage, names the result array as a function of the nine arguments.
-/
import proofs.«160143_j57294863729409_1_alg».proof.Proof.Region0
import proofs.«160143_j57294863729409_1_alg».proof.Proof.Region1
import proofs.«160143_j57294863729409_1_alg».proof.Proof.HostK
import proofs.«160143_j57294863729409_1_alg».proof.Proof.KernelRun

set_option maxRecDepth 16384
noncomputable section
open Idealize.ShloMosaic Idealize.ShloMosaic.TcCoe Idealize.SL.Sem Idealize.ShloMosaic.ValueIdx

namespace Cert.KernelIdeal.Result
open Cert.KernelIdeal Cert.KernelIdeal.Gen Cert.KernelIdeal.Hand

variable (m : (ℓ : Loc nD τ sig) → Buf (Elt Ideal) ℓ) (ρ : Dev nD → PrngReg)

/-- The hidden array the first pallas_call leaves, as a function of the launch contents. -/
def hiddenK (c : Dev nD) : (⟨S100000x64, .f32⟩ : BufTy).Contents (Elt Ideal) :=
  Sage.hiddenArr (mean12 (F := Ideal) (m ((c : Thread nD τ).loc main_arg0)) (m ((c : Thread nD τ).loc main_arg1))) (m ((c : Thread nD τ).loc main_arg0))
    (transpose S12x64 [1, 0] (m ((c : Thread nD τ).loc main_arg2)) Facts₀.transposes_S64x12_S12x64_1_0)
    (transpose S12x64 [1, 0] (m ((c : Thread nD τ).loc main_arg3)) Facts₀.transposes_S64x12_S12x64_1_0)
    (fun q => shapeCast S1x64 (m ((c : Thread nD τ).loc main_arg4)) Facts₀.shapeCasts_S64_S1x64 (ix2 (0 : Fin 1) q))

theorem hidden_value (c : Dev nD) : (dat0 (V1 m ρ) c).arrAt 5 cfg0.N = hiddenK m c := by
  rw [Region0.final0 (V1 m ρ) c, HostK.V1_v24, HostK.V1_arg0, HostK.V1_v25, HostK.V1_v26, HostK.V1_v27]
  rfl

/-- The result array the second pallas_call leaves, as a function of the launch contents. -/
def resultK (c : Dev nD) : (⟨S100000x13, .f32⟩ : BufTy).Contents (Elt Ideal) :=
  Sage.constrainedArr (mean64 (F := Ideal) (hiddenK m c) (m ((c : Thread nD τ).loc main_arg1))) (hiddenK m c)
    (transpose S64x13 [1, 0] (m ((c : Thread nD τ).loc main_arg5)) Facts₀.transposes_S13x64_S64x13_1_0)
    (transpose S64x13 [1, 0] (m ((c : Thread nD τ).loc main_arg6)) Facts₀.transposes_S13x64_S64x13_1_0)
    (fun q => shapeCast S1x13 (m ((c : Thread nD τ).loc main_arg7)) Facts₀.shapeCasts_S13_S1x13 (ix2 (0 : Fin 1) q))
    (m ((c : Thread nD τ).loc main_arg8))

theorem result_value (c : Dev nD) : W4 m ρ c (Proc.devRef .tc main_v44) = resultK m c := by
  refine (W4_arr m ρ c 6).trans ?_
  rw [Region1.final1 (V3 m ρ) c, HostK.V3_v40, HostK.V3_v28, HostK.V3_v41, HostK.V3_v42, HostK.V3_v43, HostK.V3_arg8, hidden_value]
  rfl

/-- The run of the kernel's program with its result named. -/
theorem run : θ_run defs (onTc (τ := τ) (main (F := Ideal))) ⟨m, fun _ => 0, ρ⟩ (fun r => ∀ c : Dev nD,
      r.2.mem ((c.tc : Thread nD τ).loc main_v44) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_value m ρ c), (h c).2⟩) (Cert.KernelIdeal.RunValue.run_result (F := Ideal) m ρ)

end Cert.KernelIdeal.Result
end
-- ==== Proof.RefRead.lean ====
/-
  The reference's two layers read one element at a time.

  The first layer's result at (p, q) is the linear part — the dot product of the aggregated row p with column q of one
  weight matrix, plus the dot product of the node's own row with column q of the other, plus the bias at q — clamped
  below at the zero word. The constrained output at (p, i) is the maximum over the classes j, folded from the word of
  −∞, of r[i,j] times the logistic function of the second layer's linear part at (p, j); the specification writes the
  same product with its factors in the other order.
-/
import proofs.«160143_j57294863729409_1_alg».proof.Proof.Gen.ReferenceIdeal.Read
import proofs.«160143_j57294863729409_1_alg».proof.Proof.Spec
import Idealize.ShloMosaic.Lib.ValueIdx
import Idealize.ShloMosaic.PureOps.Ideal.Laws
import Idealize.ShloMosaic.Lib.IdealHost

noncomputable section

namespace Cert.ReferenceIdeal.RefRead

open Cert.ReferenceIdeal Cert.ReferenceIdeal.Gen Cert.ReferenceIdeal.Read
open Idealize.ShloMosaic Idealize.ShloMosaic.ValueIdx

/-! ## The first layer -/

/-- The left operand of either first-layer product is read at row p, contraction coordinate k. -/
theorem lidx24 (p : Fin 100000) (q : Fin 64) (k : Fin 12) : lidx_main_v24 (ix2 p q) k = ix2 p k :=
  funext fun a => Fin.ext (by match a with | ⟨0, _⟩ => rfl | ⟨1, _⟩ => rfl)
/-- The right operand is read at contraction coordinate k, column q. -/
theorem ridx24 (p : Fin 100000) (q : Fin 64) (k : Fin 12) : ridx_main_v24 (ix2 p q) k = ix2 k q :=
  funext fun a => Fin.ext (by match a with | ⟨0, _⟩ => rfl | ⟨1, _⟩ => rfl)
theorem lidx26 (p : Fin 100000) (q : Fin 64) (k : Fin 12) : lidx_main_v26 (ix2 p q) k = ix2 p k :=
  funext fun a => Fin.ext (by match a with | ⟨0, _⟩ => rfl | ⟨1, _⟩ => rfl)
theorem ridx26 (p : Fin 100000) (q : Fin 64) (k : Fin 12) : ridx_main_v26 (ix2 p q) k = ix2 k q :=
  funext fun a => Fin.ext (by match a with | ⟨0, _⟩ => rfl | ⟨1, _⟩ => rfl)
/-- The bias, broadcast along the rows, is read at the column q. -/
theorem bidx29 (p : Fin 100000) (q : Fin 64) : idx_main_v28 (idx_main_v29 (ix2 p q)) = ix1 q :=
  funext fun a => Fin.ext (by match a with | ⟨0, _⟩ => rfl)

/-- The first layer at (p, q). -/
theorem ref_hidden_at (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal))
    (p : Fin 100000) (q : Fin 64) :
    val_main_v31 (F := Ideal) x0 x1 x2 x3 x4 (ix2 p q)
      = Sage.hidden (val_main_v22 (F := Ideal) x0 x1) x0 (val_main_v23 (F := Ideal) x2) (val_main_v25 (F := Ideal) x3)
          (fun q => x4 (ix1 q)) p q := by
  rw [val_main_v31_apply, val_main_v30_apply, val_main_v27_apply, val_main_v24_apply, val_main_v26_apply,
    val_main_v29_apply, val_main_v28_apply, val_main_call0_v0_apply, val_main_call0_cst_apply]
  simp only [lidx24, ridx24, lidx26, ridx26, bidx29, Ideal.maximumf_def, Ideal.addf_def, Ideal.ofBits_def]
  rfl

theorem ref_hidden (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal)) :
    val_main_v31 (F := Ideal) x0 x1 x2 x3 x4
      = Sage.hiddenArr (val_main_v22 (F := Ideal) x0 x1) x0 (val_main_v23 (F := Ideal) x2) (val_main_v25 (F := Ideal) x3) (fun q => x4 (ix1 q)) := by
  funext j
  obtain ⟨p, q, rfl⟩ : ∃ (p : Fin 100000) (q : Fin 64), j = ix2 p q := ⟨j 0, j 1, eq_ix2 j⟩
  exact ref_hidden_at x0 x1 x2 x3 x4 p q

/-! ## The second layer -/

/-- The left operand of either second-layer product is read at row p, contraction coordinate c. -/
theorem lidx56 (p : Fin 100000) (k : Fin 13) (c : Fin 64) : lidx_main_v56 (ix2 p k) c = ix2 p c :=
  funext fun a => Fin.ext (by match a with | ⟨0, _⟩ => rfl | ⟨1, _⟩ => rfl)
/-- The right operand is read at contraction coordinate c, class k. -/
theorem ridx56 (p : Fin 100000) (k : Fin 13) (c : Fin 64) : ridx_main_v56 (ix2 p k) c = ix2 c k :=
  funext fun a => Fin.ext (by match a with | ⟨0, _⟩ => rfl | ⟨1, _⟩ => rfl)
theorem lidx58 (p : Fin 100000) (k : Fin 13) (c : Fin 64) : lidx_main_v58 (ix2 p k) c = ix2 p c :=
  funext fun a => Fin.ext (by match a with | ⟨0, _⟩ => rfl | ⟨1, _⟩ => rfl)
theorem ridx58 (p : Fin 100000) (k : Fin 13) (c : Fin 64) : ridx_main_v58 (ix2 p k) c = ix2 c k :=
  funext fun a => Fin.ext (by match a with | ⟨0, _⟩ => rfl | ⟨1, _⟩ => rfl)
/-- The second bias, broadcast along the rows, is read at the class k. -/
theorem bidx61 (p : Fin 100000) (k : Fin 13) : idx_main_v60 (idx_main_v61 (ix2 p k)) = ix1 k :=
  funext fun a => Fin.ext (by match a with | ⟨0, _⟩ => rfl)

/-- The score at (p, k): one over one plus the exponential of the negated linear part is the logistic function of it. -/
theorem ref_score_at (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal))
    (x5 x6 : (⟨S13x64, .f32⟩ : BufTy).Contents (Elt Ideal)) (x7 : (⟨S13, .f32⟩ : BufTy).Contents (Elt Ideal))
    (p : Fin 100000) (k : Fin 13) :
    val_main_v68 (F := Ideal) x0 x1 x2 x3 x4 x5 x6 x7 (ix2 p k)
      = Sage.score (val_main_v54 (F := Ideal) x0 x1 x2 x3 x4) (val_main_v31 (F := Ideal) x0 x1 x2 x3 x4)
          (val_main_v55 (F := Ideal) x5) (val_main_v57 (F := Ideal) x6) (fun q => x7 (ix1 q)) p k := by
  rw [val_main_v68_apply, val_main_v67_apply, val_main_cst_11_apply, val_main_v66_apply, val_main_v65_apply,
    val_main_cst_10_apply, val_main_v64_apply, val_main_v63_apply, val_main_v62_apply, val_main_v59_apply,
    val_main_v56_apply, val_main_v58_apply, val_main_v61_apply, val_main_v60_apply]
  simp only [lidx56, ridx56, lidx58, ridx58, bidx61, Ideal.hostDivf_def, Ideal.addf_def, Ideal.hostUnary_exp_def,
    Ideal.hostNegf_def, Ideal.negf_def, Ideal.ofBits_def, Ideal.ofBits_one_f32]
  rfl

/-- The constraint matrix, broadcast along the nodes, is read at (i, k). -/
theorem ridx71 (p : Fin 100000) (i k : Fin 13) : idx_main_v69 (idx_main_v71 (ix3 p i k)) = ix2 i k :=
  funext fun a => Fin.ext (by match a with | ⟨0, _⟩ => rfl | ⟨1, _⟩ => rfl)
/-- The scores, broadcast along the output classes, are read at (p, k). -/
theorem sidx72 (p : Fin 100000) (i k : Fin 13) : idx_main_v70 (idx_main_v72 (ix3 p i k)) = ix2 p k :=
  funext fun a => Fin.ext (by match a with | ⟨0, _⟩ => rfl | ⟨1, _⟩ => rfl)

/-- The product at (p, i, k) is r[i,k] times the score at (p, k). -/
theorem ref_prod_at (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal))
    (x5 x6 : (⟨S13x64, .f32⟩ : BufTy).Contents (Elt Ideal)) (x7 : (⟨S13, .f32⟩ : BufTy).Contents (Elt Ideal))
    (x8 : (⟨S13x13, .f32⟩ : BufTy).Contents (Elt Ideal)) (p : Fin 100000) (i k : Fin 13) :
    val_main_v73 (F := Ideal) x0 x1 x2 x3 x4 x5 x6 x7 x8 (ix3 p i k)
      = x8 (ix2 i k) * val_main_v68 (F := Ideal) x0 x1 x2 x3 x4 x5 x6 x7 (ix2 p k) := by
  rw [val_main_v73_apply, val_main_v71_apply, val_main_v69_apply, val_main_v72_apply, val_main_v70_apply]
  simp only [ridx71, sidx72, Ideal.mulf_def]

/-- The class axis is the one the maximum runs over. -/
theorem reduces_d2 : S100000x13x13.Reduces [2] S100000x13 := by decide

/-- The reduced index (p, i) with the coordinate k put back on the last axis is (p, i, k). -/
theorem lift_d2 (p : Fin 100000) (i : Fin 13) (k : Fin (S100000x13x13.size 2)) :
    reduces_d2.lift (ix2 p i) k = ix3 p i (⟨k.val, k.isLt⟩ : Fin 13) := by
  funext c; apply Fin.ext
  fin_cases c <;> rfl

/-- The reduce at (p, i): the maximum over k, folded from the word of −∞, of the product at (p, i, k). -/
theorem ref_fold_at (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal))
    (x5 x6 : (⟨S13x64, .f32⟩ : BufTy).Contents (Elt Ideal)) (x7 : (⟨S13, .f32⟩ : BufTy).Contents (Elt Ideal))
    (x8 : (⟨S13x13, .f32⟩ : BufTy).Contents (Elt Ideal)) (p : Fin 100000) (i : Fin 13) :
    val_main_v74 (F := Ideal) x0 x1 x2 x3 x4 x5 x6 x7 x8 (ix2 p i)
      = (Finset.univ : Finset (Fin 13)).fold max (Ideal.ofBits .f32 0xFF800000#32)
          (fun k => val_main_v73 (F := Ideal) x0 x1 x2 x3 x4 x5 x6 x7 x8 (ix3 p i k)) := by
  unfold val_main_v74
  rw [Host.reduce_eq_fold_single FloatOps.maximumf _ _ reducesTo_S100000x13x13_S100000x13_d2 reduces_d2 h_S_]
  have hf : (val_main_v73 (F := Ideal) x0 x1 x2 x3 x4 x5 x6 x7 x8 ∘ reduces_d2.lift (ix2 p i))
      = fun k : Fin 13 => val_main_v73 (F := Ideal) x0 x1 x2 x3 x4 x5 x6 x7 x8 (ix3 p i k) :=
    funext fun k => congrArg (val_main_v73 (F := Ideal) x0 x1 x2 x3 x4 x5 x6 x7 x8) (lift_d2 p i k)
  rw [hf]
  rfl

/-- The constrained output at (p, i). -/
theorem ref_out_at (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal))
    (x5 x6 : (⟨S13x64, .f32⟩ : BufTy).Contents (Elt Ideal)) (x7 : (⟨S13, .f32⟩ : BufTy).Contents (Elt Ideal))
    (x8 : (⟨S13x13, .f32⟩ : BufTy).Contents (Elt Ideal)) (p : Fin 100000) (i : Fin 13) :
    val_main_v74 (F := Ideal) x0 x1 x2 x3 x4 x5 x6 x7 x8 (ix2 p i)
      = Sage.constrained (val_main_v54 (F := Ideal) x0 x1 x2 x3 x4) (val_main_v31 (F := Ideal) x0 x1 x2 x3 x4)
          (val_main_v55 (F := Ideal) x5) (val_main_v57 (F := Ideal) x6) (fun q => x7 (ix1 q)) x8 p i := by
  rw [ref_fold_at]
  unfold Sage.constrained
  refine congrArg (fun f => (Finset.univ : Finset (Fin 13)).fold max (Ideal.ofBits .f32 0xFF800000#32) f) ?_
  funext k
  rw [ref_prod_at, ref_score_at, mul_comm]

theorem ref_out (x0 : (⟨S100000x12, .f32⟩ : BufTy).Contents (Elt Ideal)) (x1 : (⟨S2x3200000, .i32⟩ : BufTy).Contents (Elt Ideal))
    (x2 x3 : (⟨S64x12, .f32⟩ : BufTy).Contents (Elt Ideal)) (x4 : (⟨S64, .f32⟩ : BufTy).Contents (Elt Ideal))
    (x5 x6 : (⟨S13x64, .f32⟩ : BufTy).Contents (Elt Ideal)) (x7 : (⟨S13, .f32⟩ : BufTy).Contents (Elt Ideal))
    (x8 : (⟨S13x13, .f32⟩ : BufTy).Contents (Elt Ideal)) :
    val_main_v74 (F := Ideal) x0 x1 x2 x3 x4 x5 x6 x7 x8
      = Sage.constrainedArr (val_main_v54 (F := Ideal) x0 x1 x2 x3 x4) (val_main_v31 (F := Ideal) x0 x1 x2 x3 x4)
          (val_main_v55 (F := Ideal) x5) (val_main_v57 (F := Ideal) x6) (fun q => x7 (ix1 q)) x8 := by
  funext j
  obtain ⟨p, i, rfl⟩ : ∃ (p : Fin 100000) (i : Fin 13), j = ix2 p i := ⟨j 0, j 1, eq_ix2 j⟩
  exact ref_out_at x0 x1 x2 x3 x4 x5 x6 x7 x8 p i

end Cert.ReferenceIdeal.RefRead

end
-- ==== Proof.Bridge.lean ====
/-
  The kernel program and the reference compute one function.

  They differ in one place. The reference divides each node's neighbourhood sum by its in-degree clamped below at
  one; the kernel's program multiplies the sum by the reciprocal of that clamped degree, computed once as a column.
  The clamped degree is a maximum with one, so it is never zero, and off zero the quotient s/d is by definition
  s·d⁻¹ = s·(1/d) on the extended reals, at the infinities too. Everything else is the same operations: the
  gather and the scatter-add of the neighbourhood sum are the same host operations on both sides, a weight matrix
  is transposed the same way, and a bias read as a one-row matrix at (0, q) is the bias vector's entry q.
-/
import proofs.«160143_j57294863729409_1_alg».proof.Proof.Gen.ReferenceIdeal.Read
import proofs.«160143_j57294863729409_1_alg».proof.Proof.RefRead
import proofs.«160143_j57294863729409_1_alg».proof.Proof.Spec
import proofs.«160143_j57294863729409_1_alg».proof.Proof.HostTerms
import Idealize.ShloMosaic.Lib.Pipeline.Value
import Idealize.ShloMosaic.Lib.ValueIdx
import Idealize.ShloMosaic.Lib.IdealHost

set_option maxRecDepth 16384
noncomputable section
open Idealize.ShloMosaic Idealize.ShloMosaic.ValueIdx

namespace Cert.Bridge
open Cert.ReferenceIdeal Cert.ReferenceIdeal.Gen Cert.ReferenceIdeal.Read Cert.KernelIdeal.Hand

abbrev A12 := (⟨S100000x12, .f32⟩ : BufTy).Contents (Elt Ideal)
abbrev A64 := (⟨S100000x64, .f32⟩ : BufTy).Contents (Elt Ideal)
abbrev Edges := (⟨S2x3200000, .i32⟩ : BufTy).Contents (Elt Ideal)

/-- A vector broadcast to a column and then across the columns of a matrix reads, at (p, k), its entry p. -/
theorem bcast_col12 {α : Type} (w : S100000.Idx → α) (h1 : S100000.BroadcastsInDim S100000x1 (![0] : Fin 1 → Fin S100000x1.rank))
    (h2 : S100000x1.BroadcastsInDim S100000x12 (![0, 1] : Fin 2 → Fin S100000x12.rank)) (p : Fin 100000) (k : Fin 12) :
    broadcastInDim S100000x12 ![0, 1] h2 (broadcastInDim S100000x1 ![0] h1 w) (ix2 p k) = w (ix1 p) := by
  refine (broadcastInDim_apply _ h2 _ (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])).trans ?_
  exact broadcastInDim_apply _ h1 w (ix2 p (0 : Fin 1)) (ix1 p) (fun a => match a with
    | ⟨0, _⟩ => by show p.val = if (100000 : Nat) = 1 then 0 else p.val; rw [if_neg (by decide)])

theorem bcast_col64 {α : Type} (w : S100000.Idx → α) (h1 : S100000.BroadcastsInDim S100000x1 (![0] : Fin 1 → Fin S100000x1.rank))
    (h2 : S100000x1.BroadcastsInDim S100000x64 (![0, 1] : Fin 2 → Fin S100000x64.rank)) (p : Fin 100000) (k : Fin 64) :
    broadcastInDim S100000x64 ![0, 1] h2 (broadcastInDim S100000x1 ![0] h1 w) (ix2 p k) = w (ix1 p) := by
  refine (broadcastInDim_apply _ h2 _ (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])).trans ?_
  exact broadcastInDim_apply _ h1 w (ix2 p (0 : Fin 1)) (ix1 p) (fun a => match a with
    | ⟨0, _⟩ => by show p.val = if (100000 : Nat) = 1 then 0 else p.val; rw [if_neg (by decide)])

/-- The broadcast word of one is one everywhere. -/
theorem ones_apply (i : S100000.Idx) : val_main_v18 (F := Ideal) i = 1 := by
  rw [val_main_v18_apply, val_main_cst_3_apply, Ideal.ofBits_def, Ideal.ofBits_one_f32]

/-- The clamped in-degree is nowhere zero. -/
theorem degClamped_ne_zero (x1 : Edges) (i : S100000.Idx) : val_main_v19 (F := Ideal) x1 i ≠ 0 := by
  rw [val_main_v19_apply, ones_apply, Ideal.maximumf_def]
  exact Sage.max_one_ne_zero _

/-- The kernel program's pieces of the mean are the reference's, operation for operation. -/
theorem nbrSum12_eq (x0 : A12) (x1 : Edges) : nbrSum12 (F := Ideal) x0 x1 = val_main_v13 (F := Ideal) x0 x1 := rfl
theorem degClamped_eq (x1 : Edges) : degClamped (F := Ideal) x1 = val_main_v19 (F := Ideal) x1 := rfl
theorem recipDeg_eq (x1 : Edges) : recipDeg (F := Ideal) x1
    = broadcastInDim S100000x1 ![0] bcast_S100000_S100000x1_0 (Host.divf (F := Ideal) (s := S100000) (φ := .f32) (val_main_v18 (F := Ideal)) (val_main_v19 (F := Ideal) x1)) := rfl

/-- A quotient and a product of arrays, read at an index. -/
theorem hostDivf_at {s : Shape} {φ : FTy} (a b : FVec Ideal s φ) (i : s.Idx) : Host.divf a b i = Ideal.div (a i) (b i) := rfl
theorem mulf_at {s : Shape} {φ : FTy} (a b : FVec Ideal s φ) (i : s.Idx) : mulf a b i = a i * b i := rfl

/-- The reciprocal column, broadcast, at (p, k): one over the clamped in-degree of node p. -/
theorem recip12_apply (x1 : Edges) (h2 : S100000x1.BroadcastsInDim S100000x12 (![0, 1] : Fin 2 → Fin S100000x12.rank)) (p : Fin 100000) (k : Fin 12) :
    broadcastInDim S100000x12 ![0, 1] h2 (recipDeg (F := Ideal) x1) (ix2 p k) = Ideal.div 1 (val_main_v19 (F := Ideal) x1 (ix1 p)) := by
  rw [recipDeg_eq, bcast_col12, hostDivf_at, ones_apply]

theorem recip64_apply (x1 : Edges) (h2 : S100000x1.BroadcastsInDim S100000x64 (![0, 1] : Fin 2 → Fin S100000x64.rank)) (p : Fin 100000) (k : Fin 64) :
    broadcastInDim S100000x64 ![0, 1] h2 (recipDeg (F := Ideal) x1) (ix2 p k) = Ideal.div 1 (val_main_v19 (F := Ideal) x1 (ix1 p)) := by
  rw [recipDeg_eq, bcast_col64, hostDivf_at, ones_apply]

/-- Read through the two broadcasts, entry (p, k) of the divisor is entry p of the clamped in-degree. -/
theorem idx_col12 (p : Fin 100000) (k : Fin 12) : idx_main_v20 (idx_main_v21 (ix2 p k)) = ix1 p :=
  funext fun a => Fin.ext (by match a with | ⟨0, _⟩ => rfl)
theorem idx_col64 (p : Fin 100000) (k : Fin 64) : idx_main_v52 (idx_main_v53 (ix2 p k)) = ix1 p :=
  funext fun a => Fin.ext (by match a with | ⟨0, _⟩ => rfl)
theorem degClamped2_eq (x1 : Edges) : val_main_v51 (F := Ideal) x1 = val_main_v19 (F := Ideal) x1 := rfl

/-- The neighbourhood mean by the reciprocal column is the reference's quotient by the clamped in-degree. -/
theorem mean12_eq (x0 : A12) (x1 : Edges) : mean12 (F := Ideal) x0 x1 = val_main_v22 (F := Ideal) x0 x1 := by
  funext j
  obtain ⟨p, k, rfl⟩ : ∃ (p : Fin 100000) (k : Fin 12), j = ix2 p k := ⟨j 0, j 1, eq_ix2 j⟩
  rw [val_main_v22_apply, val_main_v21_apply, val_main_v20_apply, idx_col12, Ideal.hostDivf_def]
  unfold mean12
  rw [mulf_at, recip12_apply, nbrSum12_eq]
  exact Sage.mul_recip_eq_div _ _ (degClamped_ne_zero x1 _)

/-- The reference's second neighbourhood sum and mean with the feature array a variable. -/
def refSum64 (h : A64) (x1 : Edges) : A64 :=
  Host.scatterAdd (F := Ideal) (s := S100000x64) (φ := .f32) scatter_S100000x64_S3200000x1_S3200000x64_1_0_0_1 (val_main_v43 (F := Ideal)) (val_main_v44 (F := Ideal) x1)
    (Host.gather (α := Ideal .f32) gather_S100000x64_S3200000x1_S3200000x64_1_0_n_n_0_1_164 h (val_main_v41 (F := Ideal) x1))

def refMean64 (h : A64) (x1 : Edges) : A64 :=
  Host.divf (F := Ideal) (s := S100000x64) (φ := .f32) (refSum64 h x1) (val_main_v53 (F := Ideal) x1)

theorem val_main_v54_eq (x0 : A12) (x1 : Edges) (x2 x3 : (⟨S64x12, .f32⟩ : BufTy).Contents (Elt Ideal)) (x4 : (⟨S64, .f32⟩ : BufTy).Contents (Elt Ideal)) :
    val_main_v54 (F := Ideal) x0 x1 x2 x3 x4 = refMean64 (val_main_v31 (F := Ideal) x0 x1 x2 x3 x4) x1 := rfl

theorem nbrSum64_eq (h : A64) (x1 : Edges) : nbrSum64 (F := Ideal) h x1 = refSum64 h x1 := rfl

theorem mean64_eq (h : A64) (x1 : Edges) : mean64 (F := Ideal) h x1 = refMean64 h x1 := by
  funext j
  obtain ⟨p, k, rfl⟩ : ∃ (p : Fin 100000) (k : Fin 64), j = ix2 p k := ⟨j 0, j 1, eq_ix2 j⟩
  unfold mean64 refMean64
  rw [mulf_at, hostDivf_at, recip64_apply, val_main_v53_apply, val_main_v52_apply, idx_col64, degClamped2_eq, nbrSum64_eq]
  exact Sage.mul_recip_eq_div _ _ (degClamped_ne_zero x1 _)

/-- A vector viewed as a one-row matrix reads, at (0, q), its entry q. -/
theorem row_apply {n : ℕ} {α : Type} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_two, Shape.rowMajor_val_one]
    show q.val = 0 * n + q.val
    omega)

/-! ## The kernel's value is the reference's -/

variable (x0 : A12) (x1 : Edges) (x2 x3 : (⟨S64x12, .f32⟩ : BufTy).Contents (Elt Ideal)) (x4 : (⟨S64, .f32⟩ : BufTy).Contents (Elt Ideal))
  (x5 x6 : (⟨S13x64, .f32⟩ : BufTy).Contents (Elt Ideal)) (x7 : (⟨S13, .f32⟩ : BufTy).Contents (Elt Ideal)) (x8 : (⟨S13x13, .f32⟩ : BufTy).Contents (Elt Ideal))

/-- The first layer: the kernel's clamped linear layer over its mean is the reference's hidden array. -/
theorem hidden_eq (ht : S64x12.Transposes [1, 0] S12x64) (hs : S64.ShapeCasts S1x64) :
    Sage.hiddenArr (mean12 (F := Ideal) x0 x1) x0 (transpose S12x64 [1, 0] x2 ht) (transpose S12x64 [1, 0] x3 ht)
        (fun q => shapeCast S1x64 x4 hs (ix2 (0 : Fin 1) q))
      = val_main_v31 (F := Ideal) x0 x1 x2 x3 x4 := by
  rw [Cert.ReferenceIdeal.RefRead.ref_hidden, mean12_eq]
  have hb : (fun q : Fin 64 => shapeCast S1x64 x4 hs (ix2 (0 : Fin 1) q)) = fun q => x4 (ix1 q) := funext fun q => row_apply x4 hs q
  rw [hb]
  rfl

/-- The second layer and the constraint: over the reference's hidden array the kernel's result is the reference's. -/
theorem out_eq (ht : S13x64.Transposes [1, 0] S64x13) (hs : S13.ShapeCasts S1x13) :
    Sage.constrainedArr (mean64 (F := Ideal) (val_main_v31 (F := Ideal) x0 x1 x2 x3 x4) x1) (val_main_v31 (F := Ideal) x0 x1 x2 x3 x4)
        (transpose S64x13 [1, 0] x5 ht) (transpose S64x13 [1, 0] x6 ht) (fun q => shapeCast S1x13 x7 hs (ix2 (0 : Fin 1) q)) x8
      = val_main_v74 (F := Ideal) x0 x1 x2 x3 x4 x5 x6 x7 x8 := by
  rw [Cert.ReferenceIdeal.RefRead.ref_out, mean64_eq, val_main_v54_eq]
  have hb : (fun q : Fin 13 => shapeCast S1x13 x7 hs (ix2 (0 : Fin 1) q)) = fun q => x7 (ix1 q) := funext fun q => row_apply x7 hs q
  rw [hb]
  rfl

end Cert.Bridge
end
-- ==== Proof.lean ====
/-
  A two-layer graph convolution with mean aggregation, followed by a hierarchy constraint: the kernel's program
  against the plain reference, over the extended reals.

  Both programs compute, for every node p,
      h[p]   = max(mean₁[p]·Wl₁ᵀ + x[p]·Wr₁ᵀ + b₁, 0),
      s[p]   = logistic(mean₂[p]·Wl₂ᵀ + h[p]·Wr₂ᵀ + b₂),
      out[p,i] = maxⱼ s[p,j]·R[i,j],
  where mean₁ and mean₂ are the sums of x and of h over a node's incoming edges divided by its in-degree clamped below
  at one. The kernel's program does the dense part of each layer in a pallas_call over blocks of rows (20000 rows a
  block in the first, 5000 in the second) and multiplies by the reciprocal of the clamped degree where the reference
  divides. The frames are the generated ones; the kernel's result array is read off its run block by block
  (Region0, Region1, KernelResult), the reference's off its run stage by stage (RefRead), and the two are joined by the
  one law that a product with the reciprocal of a nonzero extended real is the quotient by it (Bridge). No finiteness
  of the inputs is used: sums and products are the same on both sides, term for term.
-/
import proofs.«160143_j57294863729409_1_alg».proof.Defs
import proofs.«160143_j57294863729409_1_alg».proof.Proof.Gen.Kernel
import proofs.«160143_j57294863729409_1_alg».proof.Proof.Gen.Kernel.Skeleton
import proofs.«160143_j57294863729409_1_alg».proof.Proof.Gen.Kernel.Launch
import proofs.«160143_j57294863729409_1_alg».proof.Proof.Gen.Kernel.Points
import proofs.«160143_j57294863729409_1_alg».proof.Proof.Gen.Kernel.Frame
import proofs.«160143_j57294863729409_1_alg».proof.Proof.Gen.KernelIdeal
import proofs.«160143_j57294863729409_1_alg».proof.Proof.Gen.KernelIdeal.Skeleton
import proofs.«160143_j57294863729409_1_alg».proof.Proof.Gen.KernelIdeal.Launch
import proofs.«160143_j57294863729409_1_alg».proof.Proof.Gen.KernelIdeal.Points
import proofs.«160143_j57294863729409_1_alg».proof.Proof.Gen.KernelIdeal.Frame
import proofs.«160143_j57294863729409_1_alg».proof.Proof.Gen.ReferenceIdeal
import proofs.«160143_j57294863729409_1_alg».proof.Proof.Gen.Pre_finite_inputs
import proofs.«160143_j57294863729409_1_alg».proof.Proof.Gen.ReferenceIdeal.Run
import proofs.«160143_j57294863729409_1_alg».proof.Proof.Gen.ReferenceIdeal.Read
import proofs.«160143_j57294863729409_1_alg».proof.Proof.KernelResult
import proofs.«160143_j57294863729409_1_alg».proof.Proof.Bridge
import Idealize.ShloMosaic.Adequacy
import Idealize.ShloMosaic.Init

set_option maxRecDepth 16384

noncomputable section

namespace Cert.Proof

open Idealize.ShloMosaic Idealize.SL.Sem

/-- The word-level kernel program runs, and leaves its arguments as launched. -/
theorem frame_kernel : Cert.frame_Kernel := fun m ρ _ => Cert.Kernel.Gen.frame m ρ

/-- The idealized kernel program runs, and leaves its arguments as launched. -/
theorem frame_kernelIdeal : Cert.frame_KernelIdeal := fun m ρ _ => Cert.KernelIdeal.Gen.frame m ρ

/-- The reference runs, and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's result array is the reference's last stage at the same arguments: first the hidden array,
    then the constrained scores over it. -/
theorem result_eq_ref (m : (ℓ : Loc Cert.KernelIdeal.nD Cert.KernelIdeal.τ Cert.KernelIdeal.sig) → Buf (Elt Ideal) ℓ) (c : Dev Cert.KernelIdeal.nD) :
    Cert.KernelIdeal.Result.resultK m c
      = Cert.ReferenceIdeal.Read.val_main_v74 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  unfold Cert.KernelIdeal.Result.resultK
  rw [show Cert.KernelIdeal.Result.hiddenK m c = Cert.ReferenceIdeal.Read.val_main_v31 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      from Cert.Bridge.hidden_eq _ _ _ _ _ _ _]
  exact Cert.Bridge.out_eq _ _ _ _ _ _ _ _ _ _ _

/-- From memories that agree on the nine arguments both programs end with the same result array: the kernel's is
    the constrained scores over its own hidden array and means, the reference's its last stage, and these are one
    function of the arguments. -/
theorem algebraic : Cert.algebraic_KernelIdeal_ReferenceIdeal := by
  intro m ρ m' ρ' _ hagree
  refine ⟨fun c => Cert.KernelIdeal.Result.resultK m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v74_eq, e0, e1, e2, e3, e4, e5, e6, e7, e8]
  exact (result_eq_ref m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
